-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S64x256 : Shape := ⟨2, ![64, 256]⟩
abbrev S64 : Shape := ⟨1, ![64]⟩
abbrev S256x64 : Shape := ⟨2, ![256, 64]⟩
abbrev S256 : Shape := ⟨1, ![256]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16x256x128x128 .f32) (main_arg1 : FVec F S64x256 .f32) (main_arg2 : FVec F S64 .f32) (main_arg3 : FVec F S256x64 .f32) (main_arg4 : FVec F S256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_v13 main_v16
-- ==== Kernel.lean ====
abbrev S16x256x128x128 : Shape := ⟨4, ![16, 256, 128, 128]⟩
abbrev S64x256 : Shape := ⟨2, ![64, 256]⟩
abbrev S64 : Shape := ⟨1, ![64]⟩
abbrev S256x64 : Shape := ⟨2, ![256, 64]⟩
abbrev S256 : Shape := ⟨1, ![256]⟩
abbrev S16x256 : Shape := ⟨2, ![16, 256]⟩
abbrev S16x256x8x128 : Shape := ⟨4, ![16, 256, 8, 128]⟩
abbrev S16x256x8 : Shape := ⟨3, ![16, 256, 8]⟩
abbrev S16x64 : Shape := ⟨2, ![16, 64]⟩
abbrev S1x64 : Shape := ⟨2, ![1, 64]⟩
abbrev S1x256 : Shape := ⟨2, ![1, 256]⟩
abbrev S8x128x8x128 : Shape := ⟨4, ![8, 128, 8, 128]⟩
abbrev S8x128 : Shape := ⟨2, ![8, 128]⟩
abbrev S8x128x1x1 : Shape := ⟨4, ![8, 128, 1, 1]⟩

abbrev nBuf : Space → Nat
  | .hbm => 7
  | .vmem => 14
  | .smem => 0
  | _ => 0

abbrev bufTy : (tb : Table) → Fin (tcTables nBuf tb) → BufTy
  | .hbm, ⟨0, _⟩ => ⟨S16x256x128x128, .f32⟩
  | .hbm, ⟨1, _⟩ => ⟨S64x256, .f32⟩
  | .hbm, ⟨2, _⟩ => ⟨S64, .f32⟩
  | .hbm, ⟨3, _⟩ => ⟨S256x64, .f32⟩
  | .hbm, ⟨4, _⟩ => ⟨S256, .f32⟩
  | .hbm, ⟨5, _⟩ => ⟨S16x256, .f32⟩
  | .hbm, ⟨6, _⟩ => ⟨S16x256x128x128, .f32⟩
  | .local _ .vmem, ⟨0, _⟩ => ⟨S16x256x8x128, .f32⟩
  | .local _ .vmem, ⟨1, _⟩ => ⟨S16x256x8x128, .f32⟩
  | .local _ .vmem, ⟨2, _⟩ => ⟨S64x256, .f32⟩
  | .local _ .vmem, ⟨3, _⟩ => ⟨S64, .f32⟩
  | .local _ .vmem, ⟨4, _⟩ => ⟨S256x64, .f32⟩
  | .local _ .vmem, ⟨5, _⟩ => ⟨S256, .f32⟩
  | .local _ .vmem, ⟨6, _⟩ => ⟨S16x256, .f32⟩
  | .local _ .vmem, ⟨7, _⟩ => ⟨S16x256, .f32⟩
  | .local _ .vmem, ⟨8, _⟩ => ⟨S8x128x8x128, .f32⟩
  | .local _ .vmem, ⟨9, _⟩ => ⟨S8x128x8x128, .f32⟩
  | .local _ .vmem, ⟨10, _⟩ => ⟨S8x128, .f32⟩
  | .local _ .vmem, ⟨11, _⟩ => ⟨S8x128, .f32⟩
  | .local _ .vmem, ⟨12, _⟩ => ⟨S8x128x8x128, .f32⟩
  | .local _ .vmem, ⟨13, _⟩ => ⟨S8x128x8x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v11 : BitVec 1 := Scalar.cmpi .eq arg0 c15_i32
  let v12 : BitVec 32 := Scalar.extui v11
  let c0_i32_9 : BitVec 32 := 0#32
  let v13 : BitVec 1 := Scalar.cmpi .ne v12 c0_i32_9
  v13

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨3, ![2, 2, 16], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S8x128x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S8x128x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x256x8x128_S16x256x8x128_0_0_0_0 : ∀ a, (![0, 0, 0, 0] : Fin 4 → Nat) a + S16x256x8x128.size a ≤ S16x256x8x128.size a
  h_S16x256x8x128 : 0 < S16x256x8x128.numel
  reduces_S16x256x8x128_S16x256x8 : S16x256x8x128.Reduces [3] S16x256x8
  reduces_S16x256x8_S16x256 : S16x256x8.Reduces [2] S16x256
  inb_S64x256_S64x256_0_0 : ∀ a, (![0, 0] : Fin 2 → Nat) a + S64x256.size a ≤ S64x256.size a
  h_S64x256 : 0 < S64x256.numel
  inb_S64_S64_0 : ∀ a, (![0] : Fin 1 → Nat) a + S64.size a ≤ S64.size a
  h_S64 : 0 < S64.numel
  inb_S256x64_S256x64_0_0 : ∀ a, (![0, 0] : Fin 2 → Nat) a + S256x64.size a ≤ S256x64.size a
  h_S256x64 : 0 < S256x64.numel
  inb_S256_S256_0 : ∀ a, (![0] : Fin 1 → Nat) a + S256.size a ≤ S256.size a
  h_S256 : 0 < S256.numel
  transposes_S64x256_p1_0_S256x64 : S64x256.Transposes [1, 0] S256x64
  shapeCasts_S64_S1x64 : S64.ShapeCasts S1x64
  broadcasts_S1x64_S16x64 : S1x64.Broadcasts S16x64
  transposes_S256x64_p1_0_S64x256 : S256x64.Transposes [1, 0] S64x256
  shapeCasts_S256_S1x256 : S256.ShapeCasts S1x256
  broadcasts_S1x256_S16x256 : S1x256.Broadcasts S16x256
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x128_S8x128x1x1 : S8x128.ShapeCasts S8x128x1x1
  shapeCasts_S8x128x1x1_S8x128x1x1 : S8x128x1x1.ShapeCasts S8x128x1x1
  broadcasts_S8x128x1x1_S8x128x8x128 : S8x128x1x1.Broadcasts S8x128x8x128
  inb_S8x128x8x128_S8x128x8x128_0_0_0_0 : ∀ a, (![0, 0, 0, 0] : Fin 4 → Nat) a + S8x128x8x128.size a ≤ S8x128x8x128.size a
  h_S8x128x8x128 : 0 < S8x128x8x128.numel
  dot_S16x256_S256x64_S16x64_1_0_0_1_n_n_wf : DotDims.WF S16x256 S256x64 S16x64 [1] [0] [0] [1] [] []
  dot_S16x64_S64x256_S16x256_1_0_0_1_n_n_wf : DotDims.WF S16x64 S64x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x8x128.size a ≤ S16x256x128x128.size a
  hwx0_0 : ∀ i : grid0.Coords, EltTy.bits .f32 = 32 ∨ (Rect.block (s := S16x256x128x128) S16x256x8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x256.size a ≤ S16x256.size a
  hwx0_5 : ∀ i : grid0.Coords, EltTy.bits .f32 = 32 ∨ (Rect.block (s := S16x256) S16x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x8x128.size a ≤ S16x256x128x128.size a
  hwx1_0 : ∀ i : grid1.Coords, EltTy.bits .f32 = 32 ∨ (Rect.block (s := S16x256x128x128) S8x128x8x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S16x256.size a
  hwx1_1 : ∀ i : grid1.Coords, EltTy.bits .f32 = 32 ∨ (Rect.block (s := S16x256) S8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128x8x128.size a ≤ S16x256x128x128.size a
  hwx1_2 : ∀ i : grid1.Coords, EltTy.bits .f32 = 32 ∨ (Rect.block (s := S16x256x128x128) S8x128x8x128.size (cc1_transform_2 i) (hinb1_2 i)).WholeWords (EltTy.packing .f32)

variable [Facts₀]

def dot_S16x256_S256x64_S16x64_1_0_0_1_n_n : DotDims S16x256 S256x64 S16x64 where
  lhsContracting := [1]
  rhsContracting := [0]
  lhsNonContracting := [0]
  rhsNonContracting := [1]
  lhsBatch := []
  rhsBatch := []
  wf := dot_S16x256_S256x64_S16x64_1_0_0_1_n_n_wf
def dot_S16x64_S64x256_S16x256_1_0_0_1_n_n : DotDims S16x64 S64x256 S16x256 where
  lhsContracting := [1]
  rhsContracting := [0]
  lhsNonContracting := [0]
  rhsNonContracting := [1]
  lhsBatch := []
  rhsBatch := []
  wf := dot_S16x64_S64x256_S16x256_1_0_0_1_n_n_wf

abbrev win0_0 : Pipeline.Window sig grid0 :=
  Pipeline.Window.ofSpec (Memref.whole main_arg0) S16x256x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S16x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S8x128x8x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x128x8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x256x128x128 : Shape := ⟨4, ![16, 256, 128, 128]⟩
abbrev S64x256 : Shape := ⟨2, ![64, 256]⟩
abbrev S64 : Shape := ⟨1, ![64]⟩
abbrev S256x64 : Shape := ⟨2, ![256, 64]⟩
abbrev S256 : Shape := ⟨1, ![256]⟩
abbrev S_ : Shape := ⟨0, ![]⟩
abbrev S16x256 : Shape := ⟨2, ![16, 256]⟩
abbrev S16x64 : Shape := ⟨2, ![16, 64]⟩
abbrev S1x64 : Shape := ⟨2, ![1, 64]⟩
abbrev S1x256 : Shape := ⟨2, ![1, 256]⟩
abbrev S16x256x1x1 : Shape := ⟨4, ![16, 256, 1, 1]⟩

abbrev nBuf : Space → Nat
  | .hbm => 37
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S64x256, .f32⟩
  | .hbm, ⟨2, _⟩ => ⟨S64, .f32⟩
  | .hbm, ⟨3, _⟩ => ⟨S256x64, .f32⟩
  | .hbm, ⟨4, _⟩ => ⟨S256, .f32⟩
  | .hbm, ⟨5, _⟩ => ⟨S_, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x64, .f32⟩
  | .hbm, ⟨11, _⟩ => ⟨S1x64, .f32⟩
  | .hbm, ⟨12, _⟩ => ⟨S16x64, .f32⟩
  | .hbm, ⟨13, _⟩ => ⟨S16x64, .f32⟩
  | .hbm, ⟨14, _⟩ => ⟨S_, .f32⟩
  | .hbm, ⟨15, _⟩ => ⟨S_, .f32⟩
  | .hbm, ⟨16, _⟩ => ⟨S16x64, .f32⟩
  | .hbm, ⟨17, _⟩ => ⟨S16x64, .i1⟩
  | .hbm, ⟨18, _⟩ => ⟨S_, .f32⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S16x256, .f32⟩
  | .hbm, ⟨23, _⟩ => ⟨S1x256, .f32⟩
  | .hbm, ⟨24, _⟩ => ⟨S16x256, .f32⟩
  | .hbm, ⟨25, _⟩ => ⟨S16x256, .f32⟩
  | .hbm, ⟨26, _⟩ => ⟨S16x256, .f32⟩
  | .hbm, ⟨27, _⟩ => ⟨S16x256, .f32⟩
  | .hbm, ⟨28, _⟩ => ⟨S_, .f32⟩
  | .hbm, ⟨29, _⟩ => ⟨S16x256, .f32⟩
  | .hbm, ⟨30, _⟩ => ⟨S16x256, .f32⟩
  | .hbm, ⟨31, _⟩ => ⟨S_, .f32⟩
  | .hbm, ⟨32, _⟩ => ⟨S16x256, .f32⟩
  | .hbm, ⟨33, _⟩ => ⟨S16x256, .f32⟩
  | .hbm, ⟨34, _⟩ => ⟨S16x256x1x1, .f32⟩
  | .hbm, ⟨35, _⟩ => ⟨S16x256x128x128, .f32⟩
  | .hbm, ⟨36, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]

class Facts₀ : Prop where
  reducesTo_S16x256x128x128_S16x256_d2_3 : S16x256x128x128.ReducesTo [2, 3] S16x256
  h_S_ : 0 < S_.numel
  bcast_S_S16x256 : S_.BroadcastsInDim S16x256 (![] : Fin 0 → Fin S16x256.rank)
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  bcast_S_S16x64 : S_.BroadcastsInDim S16x64 (![] : Fin 0 → Fin S16x64.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S16x256_S16x256x1x1_0_1 : S16x256.BroadcastsInDim S16x256x1x1 (![0, 1] : Fin 2 → Fin S16x256x1x1.rank)
  bcast_S16x256x1x1_S16x256x128x128_0_1_2_3 : S16x256x1x1.BroadcastsInDim S16x256x128x128 (![0, 1, 2, 3] : Fin 4 → Fin S16x256x128x128.rank)
  dot_S16x256_S64x256_S16x64_1_1_0_0_n_n_wf : DotDims.WF S16x256 S64x256 S16x64 [1] [1] [0] [0] [] []
  dot_S16x64_S256x64_S16x256_1_1_0_0_n_n_wf : DotDims.WF S16x64 S256x64 S16x256 [1] [1] [0] [0] [] []

variable [Facts₀]

def dot_S16x256_S64x256_S16x64_1_1_0_0_n_n : DotDims S16x256 S64x256 S16x64 where
  lhsContracting := [1]
  rhsContracting := [1]
  lhsNonContracting := [0]
  rhsNonContracting := [0]
  lhsBatch := []
  rhsBatch := []
  wf := dot_S16x256_S64x256_S16x64_1_1_0_0_n_n_wf
def dot_S16x64_S256x64_S16x256_1_1_0_0_n_n : DotDims S16x64 S256x64 S16x256 where
  lhsContracting := [1]
  rhsContracting := [1]
  lhsNonContracting := [0]
  rhsNonContracting := [0]
  lhsBatch := []
  rhsBatch := []
  wf := dot_S16x64_S256x64_S16x256_1_1_0_0_n_n_wf

class Facts : Prop extends Facts₀ where

variable [Facts]
-- ==== Proof.Kernel.Kit.lean ====
/-
  Squeeze-and-excite as two pipelined regions: the first pools every channel's 128 x 128 plane into a running sum
  kept in a scratch buffer over sixteen row bands and, at the last band, turns the sums into the gate; the second
  multiplies every plane by its channel's gate. This module holds what both regions' proofs are stated over, at a
  parameter V (the arrays' contents when a region is entered): each window's block at a grid point, the fact that
  an input's staging buffer holds exactly that block whenever the body runs, the two branch conditions of the first
  kernel in closed form (first band; last band), where its output window is idle, and the first region's invariant
  "the scoped buffers nobody stages, at anything" opened into its seven buffers.
-/
import proofs.«138880_j44538810859952_1_alg».proof.Proof.Gen.Kernel.Launch
import proofs.«138880_j44538810859952_1_alg».proof.Proof.Gen.Kernel.Skeleton
import proofs.«138880_j44538810859952_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window w's block of the first region at band t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window w's block of the second region at tile t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input of the first region holds its block whenever the body runs, fetched at that band or not (an unfetched
    window's block index has not moved), for any proof data over V that leaves inputs in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The same for the second region's two inputs (the planes' tile; the gate's tile). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The first kernel's two branches, over the band's number -/

/-- "This is the first band": the condition under which the running sum is reset. -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)
/-- "This is the last band": the condition under which the gate is computed and stored. -/
abbrev condLast (i : grid0.Coords) : Prop := k0_cond2 i = 1#1
theorem hcondLast : ∀ t : Fin cfg0.N, condLast (grid0.coords t) ↔ t.val = 15 :=
  (by decide +kernel : ∀ t : Fin grid0.N, condLast (grid0.coords t) ↔ t.val = 15)

/-- The inputs are never idle; the gate's window is idle, and not written back, at every band but the last. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬condLast (grid0.coords t) → cfg0.idle 5 (grid0.coords t) = true := by decide +kernel
theorem noFlush0_5 : ∀ t : Fin cfg0.N, ¬condLast (grid0.coords t) → (cfg0.win 5).flush t = false := by decide +kernel
theorem liveAt0_5 : ∀ t : Fin cfg0.N, condLast (grid0.coords t) → cfg0.idle 5 (grid0.coords t) = false := by decide +kernel

/-! ## Memrefs as the pipeline passes them -/

abbrev ms0_0 (t : Fin cfg0.N) : Memref sig .tc .vmem S16x256x8x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x256 .f32 := win0_5.stage (cfg0.slots t 5)
abbrev hs0_5 (t : Fin cfg0.N) : (ms0_5 t).IsWhole := hstage0_5 ((cfg0.slots t 5).cast nbuf0_5)
/-- The running sum's buffer: a scoped buffer of the first kernel's own. -/
abbrev accM : Memref sig .tc .vmem S16x256 .f32 := Memref.whole cc0_scratch0

/-- What is left of the first region's invariant once the running sum's buffer is taken out: the second region's six
    staging buffers, each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The first region's class invariant: the running sum's buffer at anything, the other scoped buffers, the generator register. -/
theorem PhiA0_eq (c : Dev nD) :
    (Pipeline.ΦA spec0 c : sProp 𝕄)
      = iprop(iprop((∃ d, owns (c : Thread nD τ) accM fullShare d) ∗ otherScoped (F := F) c) ∗ (∃ r, prngReg c r)) := by
  unfold Pipeline.ΦA otherScoped; rw [scopedRest0_eq]; simp only [accM, owns_whole]; try rfl

end Cert.Kernel.Fr

end
-- ==== Proof.Kernel.Body0.lean ====
/-
  The first kernel's body, run once per control case on whole staging buffers. Band 0 zeroes the running sum and adds the
  band's plane sums; a middle band adds its plane sums to what the band before left; the last band does the same and then
  stores the gate computed from the finished sums. Each statement names what every buffer holds afterwards through the
  body's own arithmetic: the sum update and the gate, as functions of the buffers' contents before.
-/
import proofs.«138880_j44538810859952_1_alg».proof.Proof.Gen.Kernel.Launch
import proofs.«138880_j44538810859952_1_alg».proof.Proof.Gen.Kernel.Skeleton
import proofs.«138880_j44538810859952_1_alg».proof.Proof.Gen.Kernel.Points
import proofs.«138880_j44538810859952_1_alg».proof.Proof.Kernel.Kit
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → Nat) = fun _ => 0 := by funext a; fin_cases a; rfl
theorem hz2 : (![0, 0] : Fin 2 → Nat) = fun _ => 0 := by funext a; fin_cases a <;> rfl
theorem hz4 : (![0, 0, 0, 0] : Fin 4 → Nat) = fun _ => 0 := by funext a; fin_cases a <;> rfl

/-- One whole-buffer store covers the buffer. -/
theorem cover1 {S : Shape} {e : EltTy} {off : Fin S.rank → Nat} (h : off = fun _ => 0) (inb : ∀ a, off a + S.size a ≤ S.size a)
    (w : S.Idx → Elt F e) (y : S.Idx) : ∃ p ∈ ([⟨Rect.unit off S.size inb, w⟩] : List (View.Piece (Elt F) S e)), y ∈ p.1.set :=
  ⟨_, List.mem_singleton_self _, View.mem_set_unit_zero h inb y⟩

set_option maxHeartbeats 1000000 in
/-- A middle band: the running sum a becomes a plus the band's plane sums. -/
theorem run_mid (c : Dev nD) (E : Set ℕ) (i : grid0.Coords) (hc1 : ¬condFirst i) (hc2 : ¬condLast i)
    (arg1 : Memref sig .tc .vmem S16x256x8x128 .f32) (harg1 : arg1.IsWhole) (arg2 : Memref sig .tc .vmem S64x256 .f32) (harg2 : arg2.IsWhole)
    (arg3 : Memref sig .tc .vmem S64 .f32) (harg3 : arg3.IsWhole) (arg4 : Memref sig .tc .vmem S256x64 .f32) (harg4 : arg4.IsWhole)
    (arg5 : Memref sig .tc .vmem S256 .f32) (harg5 : arg5.IsWhole) (arg6 : Memref sig .tc .vmem S16x256 .f32) (harg6 : arg6.IsWhole)
    (arg7 : Memref sig .tc .vmem S16x256 .f32) (harg7 : arg7.IsWhole)
    (x : Vec F S16x256x8x128 .f32) (a : Vec F S16x256 .f32) (K : PUnit → sProp 𝕄) :
    iprop(owns (c : Thread nD τ) arg1 fullShare x ∗ owns (c : Thread nD τ) arg7 fullShare a
        ∗ (iprop(owns (c : Thread nD τ) arg1 fullShare x ∗ owns (c : Thread nD τ) arg7 fullShare (k0_pay2 x a)) -∗ K ⟨⟩))
      ⊢ wp frame (wpE (defs₀ (F := F)) Variants.none c none) E (cc0_pool_gate_kernel i arg1 harg1 arg2 harg2 arg3 harg3 arg4 harg4 arg5 harg5 arg6 harg6 arg7 harg7) K := by
  simp only [cc0_pool_gate_kernel_eq_skeleton]; unfold cc0_pool_gate_kernel_skel
  unfold owns
  iintro ⟨⟨%f1, %hf1, H1⟩, ⟨%f7, %hf7, H7⟩, Hk⟩
  subst hf1; subst hf7
  sl_exec (disch := first | exact hc1 | exact hc2)
  sl_step
  iapply Hk
  isplitl [H1]
  · iexists f1; isplitr; · ipureintro; rfl
    iexact H1
  iexists _; isplitr
  swap; · iexact H7
  ipureintro
  rw [View.read_writes_eq_canon _ _ _ (cover1 hz2 _ _), View.canon_unit_zero hz2]
  simp only [View.readAt_eq_ld, View.ld_unit_zero (S := S16x256) hz2, View.ld_unit_zero (S := S16x256x8x128) hz4]

set_option maxHeartbeats 1000000 in
/-- Band 0: whatever the running sum's buffer held, it ends at zero plus the band's plane sums. -/
theorem run_first (c : Dev nD) (E : Set ℕ) (i : grid0.Coords) (hc1 : condFirst i) (hc2 : ¬condLast i)
    (arg1 : Memref sig .tc .vmem S16x256x8x128 .f32) (harg1 : arg1.IsWhole) (arg2 : Memref sig .tc .vmem S64x256 .f32) (harg2 : arg2.IsWhole)
    (arg3 : Memref sig .tc .vmem S64 .f32) (harg3 : arg3.IsWhole) (arg4 : Memref sig .tc .vmem S256x64 .f32) (harg4 : arg4.IsWhole)
    (arg5 : Memref sig .tc .vmem S256 .f32) (harg5 : arg5.IsWhole) (arg6 : Memref sig .tc .vmem S16x256 .f32) (harg6 : arg6.IsWhole)
    (arg7 : Memref sig .tc .vmem S16x256 .f32) (harg7 : arg7.IsWhole)
    (x : Vec F S16x256x8x128 .f32) (K : PUnit → sProp 𝕄) :
    iprop(owns (c : Thread nD τ) arg1 fullShare x ∗ (∃ d, owns (c : Thread nD τ) arg7 fullShare d)
        ∗ (iprop(owns (c : Thread nD τ) arg1 fullShare x ∗ owns (c : Thread nD τ) arg7 fullShare (k0_pay2 x (k0_pay1 (F := F)))) -∗ K ⟨⟩))
      ⊢ wp frame (wpE (defs₀ (F := F)) Variants.none c none) E (cc0_pool_gate_kernel i arg1 harg1 arg2 harg2 arg3 harg3 arg4 harg4 arg5 harg5 arg6 harg6 arg7 harg7) K := by
  simp only [cc0_pool_gate_kernel_eq_skeleton]; unfold cc0_pool_gate_kernel_skel
  unfold owns
  iintro ⟨⟨%f1, %hf1, H1⟩, ⟨%d7, %f7, -, H7⟩, Hk⟩
  subst hf1
  sl_exec (disch := first | exact hc1 | exact hc2)
  sl_step
  iapply Hk
  isplitl [H1]
  · iexists f1; isplitr; · ipureintro; rfl
    iexact H1
  iexists _; isplitr
  swap; · iexact H7
  ipureintro
  sl_unfold_words
  rw [View.read_writes_eq_canon _ _ _ (fun y => ⟨_, List.mem_cons_self, View.mem_set_unit_zero (S := S16x256) hz2 inb_S16x256_S16x256_0_0 y⟩), View.canon_cons_unit_zero hz2,
    View.readCov_unit_zero (S := S16x256) _ hz2]
  simp only [View.readAt_eq_ld, View.ld_unit_zero (S := S16x256x8x128) hz4]

set_option maxHeartbeats 1000000 in
/-- The last band: the running sum is finished and the gate of the finished sums is stored. -/
theorem run_last (c : Dev nD) (E : Set ℕ) (i : grid0.Coords) (hc1 : ¬condFirst i) (hc2 : condLast i)
    (arg1 : Memref sig .tc .vmem S16x256x8x128 .f32) (harg1 : arg1.IsWhole) (arg2 : Memref sig .tc .vmem S64x256 .f32) (harg2 : arg2.IsWhole)
    (arg3 : Memref sig .tc .vmem S64 .f32) (harg3 : arg3.IsWhole) (arg4 : Memref sig .tc .vmem S256x64 .f32) (harg4 : arg4.IsWhole)
    (arg5 : Memref sig .tc .vmem S256 .f32) (harg5 : arg5.IsWhole) (arg6 : Memref sig .tc .vmem S16x256 .f32) (harg6 : arg6.IsWhole)
    (arg7 : Memref sig .tc .vmem S16x256 .f32) (harg7 : arg7.IsWhole)
    (x : Vec F S16x256x8x128 .f32) (a : Vec F S16x256 .f32) (w1 : Vec F S64x256 .f32) (b1 : Vec F S64 .f32) (w2 : Vec F S256x64 .f32) (b2 : Vec F S256 .f32) (K : PUnit → sProp 𝕄) :
    iprop(owns (c : Thread nD τ) arg1 fullShare x ∗ owns (c : Thread nD τ) arg2 fullShare w1 ∗ owns (c : Thread nD τ) arg3 fullShare b1
        ∗ owns (c : Thread nD τ) arg4 fullShare w2 ∗ owns (c : Thread nD τ) arg5 fullShare b2 ∗ (∃ d, owns (c : Thread nD τ) arg6 fullShare d)
        ∗ owns (c : Thread nD τ) arg7 fullShare a
        ∗ (iprop(owns (c : Thread nD τ) arg1 fullShare x ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (k0_pay3 (k0_pay2 x a) w1 b1 w2 b2)
            ∗ owns (c : Thread nD τ) arg7 fullShare (k0_pay2 x a)) -∗ K ⟨⟩))
      ⊢ wp frame (wpE (defs₀ (F := F)) Variants.none c none) E (cc0_pool_gate_kernel i arg1 harg1 arg2 harg2 arg3 harg3 arg4 harg4 arg5 harg5 arg6 harg6 arg7 harg7) K := by
  simp only [cc0_pool_gate_kernel_eq_skeleton]; unfold cc0_pool_gate_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1; subst hf2; subst hf3; subst hf4; subst hf5; subst hf7
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (cover1 hz2 _ _), View.canon_unit_zero hz2, View.readCov_unit_zero (S := S16x256) _ hz2]
    simp only [View.readAt_eq_ld, View.ld_unit_zero (S := S16x256) hz2, View.ld_unit_zero (S := S16x256x8x128) hz4,
      View.ld_unit_zero (S := S64x256) hz2, View.ld_unit_zero (S := S64) hz1, View.ld_unit_zero (S := S256x64) hz2, View.ld_unit_zero (S := S256) hz1]
  iexists _; isplitr
  swap; · iexact H7
  ipureintro
  sl_unfold_words
  rw [View.read_writes_eq_canon _ _ _ (cover1 hz2 _ _), View.canon_unit_zero hz2]
  simp only [View.readAt_eq_ld, View.ld_unit_zero (S := S16x256) hz2, View.ld_unit_zero (S := S16x256x8x128) hz4]

end Cert.Kernel.Fr

end
-- ==== Proof.Kernel.Dat0.lean ====
/-
  The first region's proof data, at entry contents V. After band n the scratch buffer holds the running sum sumAt n:
  zero plus band 0's plane sums, then each later band's plane sums added to what the band before left. The gate's
  staging buffer holds, after the last band, the gate of the finished sums and of the four parameter arrays; at every
  other band the body leaves it alone and nothing writes it back. The region's invariant is the class's before band 0
  and afterwards keeps the scratch buffer at sumAt of the band before. The body obligation follows case by case from
  the three runs of the body.
-/
import proofs.«138880_j44538810859952_1_alg».proof.Proof.Gen.Kernel.Launch
import proofs.«138880_j44538810859952_1_alg».proof.Proof.Gen.Kernel.Skeleton
import proofs.«138880_j44538810859952_1_alg».proof.Proof.Gen.Kernel.Points
import proofs.«138880_j44538810859952_1_alg».proof.Proof.Kernel.Body0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- The running sum after band n. -/
def sumAt (c : Dev nD) : (n : ℕ) → n < cfg0.N → Vec F S16x256 .f32
  | 0, hn => k0_pay2 (iblk0 V c 0 ⟨0, hn⟩) (k0_pay1 (F := F))
  | n + 1, hn => k0_pay2 (iblk0 V c 0 ⟨n + 1, hn⟩) (sumAt c n (Nat.lt_of_succ_lt hn))

theorem sumAt_zero (c : Dev nD) (t : Fin cfg0.N) (h0 : t.val = 0) :
    sumAt V c t.val t.isLt = k0_pay2 (iblk0 V c 0 t) (k0_pay1 (F := F)) := by
  obtain ⟨n, hn⟩ := t
  cases n with
  | zero => rfl
  | succ n => exact absurd h0 (Nat.succ_ne_zero n)

theorem sumAt_pos (c : Dev nD) (t : Fin cfg0.N) (h0 : t.val ≠ 0) :
    sumAt V c t.val t.isLt = k0_pay2 (iblk0 V c 0 t) (sumAt V c (t.val - 1) (Nat.lt_of_le_of_lt (Nat.sub_le _ _) t.isLt)) := by
  obtain ⟨n, hn⟩ := t
  cases n with
  | zero => exact absurd rfl h0
  | succ n => rfl

/-- The gate as band t would compute it from the running sum after that band (the pipeline reads it at the last band only). -/
def gateAt (c : Dev nD) (t : Fin cfg0.N) : Vec F S16x256 .f32 :=
  k0_pay3 (sumAt V c t.val t.isLt) (iblk0 V c 1 t) (iblk0 V c 2 t) (iblk0 V c 3 t) (iblk0 V c 4 t)

/-- The invariant before band n: the class's before band 0; afterwards the scratch buffer at the running sum the band before
    left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) accM fullShare (sumAt V c n hn) ∗ otherScoped (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare (sumAt V c n hn) ∗ otherScoped (F := F) c) ∗ (∃ r, prngReg c r)) := rfl
theorem PhiS_pos (c : Dev nD) (n : ℕ) (h : n ≤ cfg0.N) (hz : n ≠ 0) :
    PhiS V c n h = iprop(iprop(owns (c : Thread nD τ) accM fullShare (sumAt V c (n - 1) (by omega)) ∗ otherScoped (F := F) c) ∗ (∃ r, prngReg c r)) := by
  cases n with
  | zero => exact absurd rfl hz
  | succ n => rfl

/-- The first region's proof data on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => gateAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = gateAt V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at band t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  have hN : t.val < 16 := lt_of_lt_of_eq t.isLt (show cfg0.N = 16 from N_0)
  by_cases hl : t.val = 15
  · -- the last band
    have h0 : ¬t.val = 0 := by omega
    rw [show (dat0 V c).leavesExact 5 t = owns (c : Thread nD τ) (ms0_5 t) fullShare ((dat0 V c).after 5 t) from by
      unfold Dat.leavesExact; rw [liveAt0_5 t ((hcondLast t).mpr hl)], after0_5]
    unfold gateAt
    rw [sumAt_pos V c t h0, PhiS_castSucc V c t, PhiS_pos V c _ _ h0]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (run_last c Set.univ (grid0.coords t) (fun h => h0 ((hcondFirst t).mp h)) ((hcondLast t).mpr hl) _ _ _ _ _ _ _ _ _ _ _ _ _ _
      (iblk0 V c 0 t) (sumAt V c (t.val - 1) (Nat.lt_of_le_of_lt (Nat.sub_le _ _) t.isLt)) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · have hnl : ¬condLast (grid0.coords t) := fun h => hl ((hcondLast t).mp h)
    rw [Dat.leavesExact_idle (dat0 V c) 5 t (idleAt0_5 t hnl) (noFlush0_5 t hnl)]
    by_cases h0 : t.val = 0
    · -- band 0
      rw [sumAt_zero V c t h0, PhiS_castSucc V c t, PhiS_zero V c _ _ h0, PhiA0_eq]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run_first c Set.univ (grid0.coords t) ((hcondFirst t).mpr h0) hnl _ _ _ _ _ _ _ _ _ _ _ _ _ _ (iblk0 V c 0 t) _)
      isplitl [H0]; · iexact H0
      isplitl [HS]; · iexact HS
      iintro ⟨H0, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · -- a middle band
      rw [sumAt_pos V c t h0, PhiS_castSucc V c t, PhiS_pos V c _ _ h0]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run_mid c Set.univ (grid0.coords t) (fun h => h0 ((hcondFirst t).mp h)) hnl _ _ _ _ _ _ _ _ _ _ _ _ _ _
        (iblk0 V c 0 t) (sumAt V c (t.val - 1) (Nat.lt_of_le_of_lt (Nat.sub_le _ _) t.isLt)) _)
      isplitl [H0]; · iexact H0
      isplitl [HS]; · iexact HS
      iintro ⟨H0, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every band. -/
theorem body_obligation0 (c : Dev nD) : BodyObligation (dat0 (F := F) V c) (defs₀ (F := F)) Variants.none () Set.univ := fun t => by
  rw [bigSep_W0, bigSep_W0]
  exact sound_body0 V c t

/-- What the launch hands the region is the invariant before band 0. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last band the invariant gives the class's back: the running sum's name is forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS, Hoth⟩, Hg⟩
  isplitl [HS Hoth]
  · isplitl [HS]
    · iexists _; iexact HS
    iexact Hoth
  iexact Hg

end

end Cert.Kernel.Fr

end
-- ==== Proof.Kernel.Dat1.lean ====
/-
  The second region, at entry contents V: every tile of the planes (8 images x 128 channels x 8 rows x 128 lanes) is
  multiplied, element by element, by its channels' gates spread over rows and lanes. The body loads the gate tile and
  the plane tile and stores the product; the proof data say each input's staging buffer holds its tile and the output's
  holds that product; the invariant is the class's (nothing is kept between tiles).
-/
import proofs.«138880_j44538810859952_1_alg».proof.Proof.Gen.Kernel.Launch
import proofs.«138880_j44538810859952_1_alg».proof.Proof.Gen.Kernel.Skeleton
import proofs.«138880_j44538810859952_1_alg».proof.Proof.Gen.Kernel.Points
import proofs.«138880_j44538810859952_1_alg».proof.Proof.Kernel.Body0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole staging buffers: the plane tile x and the gate tile g are left as they were, the output tile ends at the
    product of x with g spread over rows and lanes. -/
theorem sound_kernel1 (c : Dev nD) (E : Set ℕ) (i : grid1.Coords)
    (arg3 : Memref sig .tc .vmem S8x128x8x128 .f32) (harg3 : arg3.IsWhole) (arg4 : Memref sig .tc .vmem S8x128 .f32) (harg4 : arg4.IsWhole)
    (arg5 : Memref sig .tc .vmem S8x128x8x128 .f32) (harg5 : arg5.IsWhole)
    (x : Vec F S8x128x8x128 .f32) (g : Vec F S8x128 .f32) (K : PUnit → sProp 𝕄) :
    iprop(owns (c : Thread nD τ) arg3 fullShare x ∗ owns (c : Thread nD τ) arg4 fullShare g ∗ (∃ d, owns (c : Thread nD τ) arg5 fullShare d)
        ∗ (iprop(owns (c : Thread nD τ) arg3 fullShare x ∗ owns (c : Thread nD τ) arg4 fullShare g
            ∗ owns (c : Thread nD τ) arg5 fullShare (k1_pay1 g x)) -∗ K ⟨⟩))
      ⊢ wp frame (wpE (defs₀ (F := F)) Variants.none c none) E (cc1_mul_kernel i arg3 harg3 arg4 harg4 arg5 harg5) K := by
  simp only [cc1_mul_kernel_eq_skeleton]; unfold cc1_mul_kernel_skel
  unfold owns
  iintro ⟨⟨%f3, %hf3, H3⟩, ⟨%f4, %hf4, H4⟩, ⟨%d5, %f5, -, H5⟩, Hk⟩
  subst hf3; subst hf4
  sl_exec
  sl_step
  iapply Hk
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover1 hz4 _ _), View.canon_unit_zero hz4]
  simp only [View.readAt_eq_ld, View.ld_unit_zero (S := S8x128) hz2, View.ld_unit_zero (S := S8x128x8x128) hz4]

section

variable (V : (c : Dev nD) → (b : Ref sig .tc) → Buf (Elt F) ((c : Thread nD τ).loc b))

/-- The second region's proof data on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 1 t) (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 1 t) (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every tile. -/
theorem body_obligation1 (c : Dev nD) : BodyObligation (dat1 (F := F) V c) (defs₀ (F := F)) Variants.none () Set.univ := fun t => by
  rw [bigSep_W1, bigSep_W1]
  exact sound_body1 V c t

end

end Cert.Kernel.Fr

end
-- ==== Proof.Kernel.Run.lean ====
/-
  The whole program as two regions in a row. Between items a core holds every unscoped buffer at a known valuation: the
  launch memory; after the first region the same with the gate's array at what that region's write-back leaves; after the
  second the same with the result array at what its sixty-four write-backs leave. Each region is entered from the
  valuation before it and left at the one after it; the generator register and "nothing owed" ride along. The run's
  post reads the result array and the five argument arrays off the last valuation: the arguments walk back to the
  launch memory because both regions only read them.
-/
import proofs.«138880_j44538810859952_1_alg».proof.Proof.Gen.Kernel.Launch
import proofs.«138880_j44538810859952_1_alg».proof.Proof.Gen.Kernel.Skeleton
import proofs.«138880_j44538810859952_1_alg».proof.Proof.Gen.Kernel.Points
import proofs.«138880_j44538810859952_1_alg».proof.Proof.Kernel.Dat0
import proofs.«138880_j44538810859952_1_alg».proof.Proof.Kernel.Dat1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch, -/
abbrev W0 : Dev nD → Valuation τ sig (Elt F) := fun c b => m ((c : Dev nD), b)
abbrev V0 : (c : Dev nD) → (b : Ref sig .tc) → Buf (Elt F) ((c : Thread nD τ).loc b) := fun c b => W0 m c b
/-- after the first region (the gate's array written back once, at the last band), -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- and after the second (the result array written back tile by tile). -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## The arguments end as launched; the gate's array and the result array are the regions' -/

theorem W1_main_arg (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((dat0 (V0 m) c).arrAt_in w hw _).trans (A_eq0 (V0 m) c w))

theorem W2_main_arg0 (c : Dev nD) : W2 m c (Proc.devRef .tc main_arg0) = m ((c : Thread nD τ).loc main_arg0) :=
  calc W2 m c (Proc.devRef .tc main_arg0)
    _ = W1 m c (Proc.devRef .tc main_arg0) := (W2_arr m c 0).trans (((dat1 (V1 m) c).arrAt_in 0 rfl _).trans (A_eq1 (V1 m) c 0))
    _ = W0 m c (Proc.devRef .tc main_arg0) := W1_main_arg m c 0 rfl
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := W1_main_arg m c 1 rfl
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := W1_main_arg m c 2 rfl
    _ = m ((c : Thread nD τ).loc main_arg2) := rfl
theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := W1_main_arg m c 3 rfl
    _ = m ((c : Thread nD τ).loc main_arg3) := rfl
theorem W2_main_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := W1_main_arg m c 4 rfl
    _ = m ((c : Thread nD τ).loc main_arg4) := rfl
/-- The result array after the run is what the second region's write-backs leave, -/
theorem W2_main_v1 (c : Dev nD) : W2 m c (Proc.devRef .tc main_v1) = (dat1 (V1 m) c).arrAt 2 cfg1.N := W2_arr m c 2
/-- whose gate array is what the first region's one write-back left, and whose planes are the launch's. -/
theorem V1_main_v0 (c : Dev nD) : V1 m c main_v0 = (dat0 (V0 m) c).arrAt 5 cfg0.N := W1_arr m c 5
theorem V1_main_arg0 (c : Dev nD) : V1 m c main_arg0 = m ((c : Thread nD τ).loc main_arg0) := W1_main_arg m c 0 rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, faulting nowhere, with
    the result array at what the second region's write-backs leave and each of the five arguments as launched. -/
theorem run_main : θ_run defs (onTc (τ := τ) (main (F := F))) ⟨m, fun _ => 0, ρ⟩ (fun r => ∀ c : Dev nD,
      r.2.mem ((c.tc : Thread nD τ).loc main_v1) = (dat1 (V1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_main_v1 m c),
       (h c _ (mem_uc main_arg0 (by decide))).trans (W2_main_arg0 m c),
       (h c _ (mem_uc main_arg1 (by decide))).trans (W2_main_arg1 m c),
       (h c _ (mem_uc main_arg2 (by decide))).trans (W2_main_arg2 m c),
       (h c _ (mem_uc main_arg3 (by decide))).trans (W2_main_arg3 m c),
       (h c _ (mem_uc main_arg4 (by decide))).trans (W2_main_arg4 m c)⟩)

/-- The frame: the program runs and its five arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.Kernel.Fr

end
-- ==== Proof.KernelIdeal.Kit.lean ====
/-
  Squeeze-and-excite as two pipelined regions: the first pools every channel's 128 x 128 plane into a running sum
  kept in a scratch buffer over sixteen row bands and, at the last band, turns the sums into the gate; the second
  multiplies every plane by its channel's gate. This module holds what both regions' proofs are stated over, at a
  parameter V (the arrays' contents when a region is entered): each window's block at a grid point, the fact that
  an input's staging buffer holds exactly that block whenever the body runs, the two branch conditions of the first
  kernel in closed form (first band; last band), where its output window is idle, and the first region's invariant
  "the scoped buffers nobody stages, at anything" opened into its seven buffers.
-/
import proofs.«138880_j44538810859952_1_alg».proof.Proof.Gen.KernelIdeal.Launch
import proofs.«138880_j44538810859952_1_alg».proof.Proof.Gen.KernelIdeal.Skeleton
import proofs.«138880_j44538810859952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window w's block of the first region at band t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window w's block of the second region at tile t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input of the first region holds its block whenever the body runs, fetched at that band or not (an unfetched
    window's block index has not moved), for any proof data over V that leaves inputs in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The same for the second region's two inputs (the planes' tile; the gate's tile). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The first kernel's two branches, over the band's number -/

/-- "This is the first band": the condition under which the running sum is reset. -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)
/-- "This is the last band": the condition under which the gate is computed and stored. -/
abbrev condLast (i : grid0.Coords) : Prop := k0_cond2 i = 1#1
theorem hcondLast : ∀ t : Fin cfg0.N, condLast (grid0.coords t) ↔ t.val = 15 :=
  (by decide +kernel : ∀ t : Fin grid0.N, condLast (grid0.coords t) ↔ t.val = 15)

/-- The inputs are never idle; the gate's window is idle, and not written back, at every band but the last. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem idleAt0_5 : ∀ t : Fin cfg0.N, ¬condLast (grid0.coords t) → cfg0.idle 5 (grid0.coords t) = true := by decide +kernel
theorem noFlush0_5 : ∀ t : Fin cfg0.N, ¬condLast (grid0.coords t) → (cfg0.win 5).flush t = false := by decide +kernel
theorem liveAt0_5 : ∀ t : Fin cfg0.N, condLast (grid0.coords t) → cfg0.idle 5 (grid0.coords t) = false := by decide +kernel

/-! ## Memrefs as the pipeline passes them -/

abbrev ms0_0 (t : Fin cfg0.N) : Memref sig .tc .vmem S16x256x8x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x256 .f32 := win0_5.stage (cfg0.slots t 5)
abbrev hs0_5 (t : Fin cfg0.N) : (ms0_5 t).IsWhole := hstage0_5 ((cfg0.slots t 5).cast nbuf0_5)
/-- The running sum's buffer: a scoped buffer of the first kernel's own. -/
abbrev accM : Memref sig .tc .vmem S16x256 .f32 := Memref.whole cc0_scratch0

/-- What is left of the first region's invariant once the running sum's buffer is taken out: the second region's six
    staging buffers, each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The first region's class invariant: the running sum's buffer at anything, the other scoped buffers, the generator register. -/
theorem PhiA0_eq (c : Dev nD) :
    (Pipeline.ΦA spec0 c : sProp 𝕄)
      = iprop(iprop((∃ d, owns (c : Thread nD τ) accM fullShare d) ∗ otherScoped (F := F) c) ∗ (∃ r, prngReg c r)) := by
  unfold Pipeline.ΦA otherScoped; rw [scopedRest0_eq]; simp only [accM, owns_whole]; try rfl

end Cert.KernelIdeal.Fr

end
-- ==== Proof.KernelIdeal.Body0.lean ====
/-
  The first kernel's body, run once per control case on whole staging buffers. Band 0 zeroes the running sum and adds the
  band's plane sums; a middle band adds its plane sums to what the band before left; the last band does the same and then
  stores the gate computed from the finished sums. Each statement names what every buffer holds afterwards through the
  body's own arithmetic: the sum update and the gate, as functions of the buffers' contents before.
-/
import proofs.«138880_j44538810859952_1_alg».proof.Proof.Gen.KernelIdeal.Launch
import proofs.«138880_j44538810859952_1_alg».proof.Proof.Gen.KernelIdeal.Skeleton
import proofs.«138880_j44538810859952_1_alg».proof.Proof.Gen.KernelIdeal.Points
import proofs.«138880_j44538810859952_1_alg».proof.Proof.KernelIdeal.Kit
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → Nat) = fun _ => 0 := by funext a; fin_cases a; rfl
theorem hz2 : (![0, 0] : Fin 2 → Nat) = fun _ => 0 := by funext a; fin_cases a <;> rfl
theorem hz4 : (![0, 0, 0, 0] : Fin 4 → Nat) = fun _ => 0 := by funext a; fin_cases a <;> rfl

/-- One whole-buffer store covers the buffer. -/
theorem cover1 {S : Shape} {e : EltTy} {off : Fin S.rank → Nat} (h : off = fun _ => 0) (inb : ∀ a, off a + S.size a ≤ S.size a)
    (w : S.Idx → Elt F e) (y : S.Idx) : ∃ p ∈ ([⟨Rect.unit off S.size inb, w⟩] : List (View.Piece (Elt F) S e)), y ∈ p.1.set :=
  ⟨_, List.mem_singleton_self _, View.mem_set_unit_zero h inb y⟩

set_option maxHeartbeats 1000000 in
/-- A middle band: the running sum a becomes a plus the band's plane sums. -/
theorem run_mid (c : Dev nD) (E : Set ℕ) (i : grid0.Coords) (hc1 : ¬condFirst i) (hc2 : ¬condLast i)
    (arg1 : Memref sig .tc .vmem S16x256x8x128 .f32) (harg1 : arg1.IsWhole) (arg2 : Memref sig .tc .vmem S64x256 .f32) (harg2 : arg2.IsWhole)
    (arg3 : Memref sig .tc .vmem S64 .f32) (harg3 : arg3.IsWhole) (arg4 : Memref sig .tc .vmem S256x64 .f32) (harg4 : arg4.IsWhole)
    (arg5 : Memref sig .tc .vmem S256 .f32) (harg5 : arg5.IsWhole) (arg6 : Memref sig .tc .vmem S16x256 .f32) (harg6 : arg6.IsWhole)
    (arg7 : Memref sig .tc .vmem S16x256 .f32) (harg7 : arg7.IsWhole)
    (x : Vec F S16x256x8x128 .f32) (a : Vec F S16x256 .f32) (K : PUnit → sProp 𝕄) :
    iprop(owns (c : Thread nD τ) arg1 fullShare x ∗ owns (c : Thread nD τ) arg7 fullShare a
        ∗ (iprop(owns (c : Thread nD τ) arg1 fullShare x ∗ owns (c : Thread nD τ) arg7 fullShare (k0_pay2 x a)) -∗ K ⟨⟩))
      ⊢ wp frame (wpE (defs₀ (F := F)) Variants.none c none) E (cc0_pool_gate_kernel i arg1 harg1 arg2 harg2 arg3 harg3 arg4 harg4 arg5 harg5 arg6 harg6 arg7 harg7) K := by
  simp only [cc0_pool_gate_kernel_eq_skeleton]; unfold cc0_pool_gate_kernel_skel
  unfold owns
  iintro ⟨⟨%f1, %hf1, H1⟩, ⟨%f7, %hf7, H7⟩, Hk⟩
  subst hf1; subst hf7
  sl_exec (disch := first | exact hc1 | exact hc2)
  sl_step
  iapply Hk
  isplitl [H1]
  · iexists f1; isplitr; · ipureintro; rfl
    iexact H1
  iexists _; isplitr
  swap; · iexact H7
  ipureintro
  rw [View.read_writes_eq_canon _ _ _ (cover1 hz2 _ _), View.canon_unit_zero hz2]
  simp only [View.readAt_eq_ld, View.ld_unit_zero (S := S16x256) hz2, View.ld_unit_zero (S := S16x256x8x128) hz4]

set_option maxHeartbeats 1000000 in
/-- Band 0: whatever the running sum's buffer held, it ends at zero plus the band's plane sums. -/
theorem run_first (c : Dev nD) (E : Set ℕ) (i : grid0.Coords) (hc1 : condFirst i) (hc2 : ¬condLast i)
    (arg1 : Memref sig .tc .vmem S16x256x8x128 .f32) (harg1 : arg1.IsWhole) (arg2 : Memref sig .tc .vmem S64x256 .f32) (harg2 : arg2.IsWhole)
    (arg3 : Memref sig .tc .vmem S64 .f32) (harg3 : arg3.IsWhole) (arg4 : Memref sig .tc .vmem S256x64 .f32) (harg4 : arg4.IsWhole)
    (arg5 : Memref sig .tc .vmem S256 .f32) (harg5 : arg5.IsWhole) (arg6 : Memref sig .tc .vmem S16x256 .f32) (harg6 : arg6.IsWhole)
    (arg7 : Memref sig .tc .vmem S16x256 .f32) (harg7 : arg7.IsWhole)
    (x : Vec F S16x256x8x128 .f32) (K : PUnit → sProp 𝕄) :
    iprop(owns (c : Thread nD τ) arg1 fullShare x ∗ (∃ d, owns (c : Thread nD τ) arg7 fullShare d)
        ∗ (iprop(owns (c : Thread nD τ) arg1 fullShare x ∗ owns (c : Thread nD τ) arg7 fullShare (k0_pay2 x (k0_pay1 (F := F)))) -∗ K ⟨⟩))
      ⊢ wp frame (wpE (defs₀ (F := F)) Variants.none c none) E (cc0_pool_gate_kernel i arg1 harg1 arg2 harg2 arg3 harg3 arg4 harg4 arg5 harg5 arg6 harg6 arg7 harg7) K := by
  simp only [cc0_pool_gate_kernel_eq_skeleton]; unfold cc0_pool_gate_kernel_skel
  unfold owns
  iintro ⟨⟨%f1, %hf1, H1⟩, ⟨%d7, %f7, -, H7⟩, Hk⟩
  subst hf1
  sl_exec (disch := first | exact hc1 | exact hc2)
  sl_step
  iapply Hk
  isplitl [H1]
  · iexists f1; isplitr; · ipureintro; rfl
    iexact H1
  iexists _; isplitr
  swap; · iexact H7
  ipureintro
  sl_unfold_words
  rw [View.read_writes_eq_canon _ _ _ (fun y => ⟨_, List.mem_cons_self, View.mem_set_unit_zero (S := S16x256) hz2 inb_S16x256_S16x256_0_0 y⟩), View.canon_cons_unit_zero hz2,
    View.readCov_unit_zero (S := S16x256) _ hz2]
  simp only [View.readAt_eq_ld, View.ld_unit_zero (S := S16x256x8x128) hz4]

set_option maxHeartbeats 1000000 in
/-- The last band: the running sum is finished and the gate of the finished sums is stored. -/
theorem run_last (c : Dev nD) (E : Set ℕ) (i : grid0.Coords) (hc1 : ¬condFirst i) (hc2 : condLast i)
    (arg1 : Memref sig .tc .vmem S16x256x8x128 .f32) (harg1 : arg1.IsWhole) (arg2 : Memref sig .tc .vmem S64x256 .f32) (harg2 : arg2.IsWhole)
    (arg3 : Memref sig .tc .vmem S64 .f32) (harg3 : arg3.IsWhole) (arg4 : Memref sig .tc .vmem S256x64 .f32) (harg4 : arg4.IsWhole)
    (arg5 : Memref sig .tc .vmem S256 .f32) (harg5 : arg5.IsWhole) (arg6 : Memref sig .tc .vmem S16x256 .f32) (harg6 : arg6.IsWhole)
    (arg7 : Memref sig .tc .vmem S16x256 .f32) (harg7 : arg7.IsWhole)
    (x : Vec F S16x256x8x128 .f32) (a : Vec F S16x256 .f32) (w1 : Vec F S64x256 .f32) (b1 : Vec F S64 .f32) (w2 : Vec F S256x64 .f32) (b2 : Vec F S256 .f32) (K : PUnit → sProp 𝕄) :
    iprop(owns (c : Thread nD τ) arg1 fullShare x ∗ owns (c : Thread nD τ) arg2 fullShare w1 ∗ owns (c : Thread nD τ) arg3 fullShare b1
        ∗ owns (c : Thread nD τ) arg4 fullShare w2 ∗ owns (c : Thread nD τ) arg5 fullShare b2 ∗ (∃ d, owns (c : Thread nD τ) arg6 fullShare d)
        ∗ owns (c : Thread nD τ) arg7 fullShare a
        ∗ (iprop(owns (c : Thread nD τ) arg1 fullShare x ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (k0_pay3 (k0_pay2 x a) w1 b1 w2 b2)
            ∗ owns (c : Thread nD τ) arg7 fullShare (k0_pay2 x a)) -∗ K ⟨⟩))
      ⊢ wp frame (wpE (defs₀ (F := F)) Variants.none c none) E (cc0_pool_gate_kernel i arg1 harg1 arg2 harg2 arg3 harg3 arg4 harg4 arg5 harg5 arg6 harg6 arg7 harg7) K := by
  simp only [cc0_pool_gate_kernel_eq_skeleton]; unfold cc0_pool_gate_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1; subst hf2; subst hf3; subst hf4; subst hf5; subst hf7
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (cover1 hz2 _ _), View.canon_unit_zero hz2, View.readCov_unit_zero (S := S16x256) _ hz2]
    simp only [View.readAt_eq_ld, View.ld_unit_zero (S := S16x256) hz2, View.ld_unit_zero (S := S16x256x8x128) hz4,
      View.ld_unit_zero (S := S64x256) hz2, View.ld_unit_zero (S := S64) hz1, View.ld_unit_zero (S := S256x64) hz2, View.ld_unit_zero (S := S256) hz1]
  iexists _; isplitr
  swap; · iexact H7
  ipureintro
  sl_unfold_words
  rw [View.read_writes_eq_canon _ _ _ (cover1 hz2 _ _), View.canon_unit_zero hz2]
  simp only [View.readAt_eq_ld, View.ld_unit_zero (S := S16x256) hz2, View.ld_unit_zero (S := S16x256x8x128) hz4]

end Cert.KernelIdeal.Fr

end
-- ==== Proof.KernelIdeal.Dat0.lean ====
/-
  The first region's proof data, at entry contents V. After band n the scratch buffer holds the running sum sumAt n:
  zero plus band 0's plane sums, then each later band's plane sums added to what the band before left. The gate's
  staging buffer holds, after the last band, the gate of the finished sums and of the four parameter arrays; at every
  other band the body leaves it alone and nothing writes it back. The region's invariant is the class's before band 0
  and afterwards keeps the scratch buffer at sumAt of the band before. The body obligation follows case by case from
  the three runs of the body.
-/
import proofs.«138880_j44538810859952_1_alg».proof.Proof.Gen.KernelIdeal.Launch
import proofs.«138880_j44538810859952_1_alg».proof.Proof.Gen.KernelIdeal.Skeleton
import proofs.«138880_j44538810859952_1_alg».proof.Proof.Gen.KernelIdeal.Points
import proofs.«138880_j44538810859952_1_alg».proof.Proof.KernelIdeal.Body0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- The running sum after band n. -/
def sumAt (c : Dev nD) : (n : ℕ) → n < cfg0.N → Vec F S16x256 .f32
  | 0, hn => k0_pay2 (iblk0 V c 0 ⟨0, hn⟩) (k0_pay1 (F := F))
  | n + 1, hn => k0_pay2 (iblk0 V c 0 ⟨n + 1, hn⟩) (sumAt c n (Nat.lt_of_succ_lt hn))

theorem sumAt_zero (c : Dev nD) (t : Fin cfg0.N) (h0 : t.val = 0) :
    sumAt V c t.val t.isLt = k0_pay2 (iblk0 V c 0 t) (k0_pay1 (F := F)) := by
  obtain ⟨n, hn⟩ := t
  cases n with
  | zero => rfl
  | succ n => exact absurd h0 (Nat.succ_ne_zero n)

theorem sumAt_pos (c : Dev nD) (t : Fin cfg0.N) (h0 : t.val ≠ 0) :
    sumAt V c t.val t.isLt = k0_pay2 (iblk0 V c 0 t) (sumAt V c (t.val - 1) (Nat.lt_of_le_of_lt (Nat.sub_le _ _) t.isLt)) := by
  obtain ⟨n, hn⟩ := t
  cases n with
  | zero => exact absurd rfl h0
  | succ n => rfl

/-- The gate as band t would compute it from the running sum after that band (the pipeline reads it at the last band only). -/
def gateAt (c : Dev nD) (t : Fin cfg0.N) : Vec F S16x256 .f32 :=
  k0_pay3 (sumAt V c t.val t.isLt) (iblk0 V c 1 t) (iblk0 V c 2 t) (iblk0 V c 3 t) (iblk0 V c 4 t)

/-- The invariant before band n: the class's before band 0; afterwards the scratch buffer at the running sum the band before
    left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) accM fullShare (sumAt V c n hn) ∗ otherScoped (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare (sumAt V c n hn) ∗ otherScoped (F := F) c) ∗ (∃ r, prngReg c r)) := rfl
theorem PhiS_pos (c : Dev nD) (n : ℕ) (h : n ≤ cfg0.N) (hz : n ≠ 0) :
    PhiS V c n h = iprop(iprop(owns (c : Thread nD τ) accM fullShare (sumAt V c (n - 1) (by omega)) ∗ otherScoped (F := F) c) ∗ (∃ r, prngReg c r)) := by
  cases n with
  | zero => exact absurd rfl hz
  | succ n => rfl

/-- The first region's proof data on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => gateAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = gateAt V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at band t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  have hN : t.val < 16 := lt_of_lt_of_eq t.isLt (show cfg0.N = 16 from N_0)
  by_cases hl : t.val = 15
  · -- the last band
    have h0 : ¬t.val = 0 := by omega
    rw [show (dat0 V c).leavesExact 5 t = owns (c : Thread nD τ) (ms0_5 t) fullShare ((dat0 V c).after 5 t) from by
      unfold Dat.leavesExact; rw [liveAt0_5 t ((hcondLast t).mpr hl)], after0_5]
    unfold gateAt
    rw [sumAt_pos V c t h0, PhiS_castSucc V c t, PhiS_pos V c _ _ h0]
    iintro ⟨⟨⟨HS, Hoth⟩, Hg⟩, Ho, ⟨%d0, H0⟩, ⟨%d1, H1⟩, ⟨%d2, H2⟩, ⟨%d3, H3⟩, ⟨%d4, H4⟩, ⟨%d5, H5⟩⟩
    iapply (run_last c Set.univ (grid0.coords t) (fun h => h0 ((hcondFirst t).mp h)) ((hcondLast t).mpr hl) _ _ _ _ _ _ _ _ _ _ _ _ _ _
      (iblk0 V c 0 t) (sumAt V c (t.val - 1) (Nat.lt_of_le_of_lt (Nat.sub_le _ _) t.isLt)) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · have hnl : ¬condLast (grid0.coords t) := fun h => hl ((hcondLast t).mp h)
    rw [Dat.leavesExact_idle (dat0 V c) 5 t (idleAt0_5 t hnl) (noFlush0_5 t hnl)]
    by_cases h0 : t.val = 0
    · -- band 0
      rw [sumAt_zero V c t h0, PhiS_castSucc V c t, PhiS_zero V c _ _ h0, PhiA0_eq]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run_first c Set.univ (grid0.coords t) ((hcondFirst t).mpr h0) hnl _ _ _ _ _ _ _ _ _ _ _ _ _ _ (iblk0 V c 0 t) _)
      isplitl [H0]; · iexact H0
      isplitl [HS]; · iexact HS
      iintro ⟨H0, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · -- a middle band
      rw [sumAt_pos V c t h0, PhiS_castSucc V c t, PhiS_pos V c _ _ h0]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (run_mid c Set.univ (grid0.coords t) (fun h => h0 ((hcondFirst t).mp h)) hnl _ _ _ _ _ _ _ _ _ _ _ _ _ _
        (iblk0 V c 0 t) (sumAt V c (t.val - 1) (Nat.lt_of_le_of_lt (Nat.sub_le _ _) t.isLt)) _)
      isplitl [H0]; · iexact H0
      isplitl [HS]; · iexact HS
      iintro ⟨H0, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every band. -/
theorem body_obligation0 (c : Dev nD) : BodyObligation (dat0 (F := F) V c) (defs₀ (F := F)) Variants.none () Set.univ := fun t => by
  rw [bigSep_W0, bigSep_W0]
  exact sound_body0 V c t

/-- What the launch hands the region is the invariant before band 0. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last band the invariant gives the class's back: the running sum's name is forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS, Hoth⟩, Hg⟩
  isplitl [HS Hoth]
  · isplitl [HS]
    · iexists _; iexact HS
    iexact Hoth
  iexact Hg

end

end Cert.KernelIdeal.Fr

end
-- ==== Proof.KernelIdeal.Dat1.lean ====
/-
  The second region, at entry contents V: every tile of the planes (8 images x 128 channels x 8 rows x 128 lanes) is
  multiplied, element by element, by its channels' gates spread over rows and lanes. The body loads the gate tile and
  the plane tile and stores the product; the proof data say each input's staging buffer holds its tile and the output's
  holds that product; the invariant is the class's (nothing is kept between tiles).
-/
import proofs.«138880_j44538810859952_1_alg».proof.Proof.Gen.KernelIdeal.Launch
import proofs.«138880_j44538810859952_1_alg».proof.Proof.Gen.KernelIdeal.Skeleton
import proofs.«138880_j44538810859952_1_alg».proof.Proof.Gen.KernelIdeal.Points
import proofs.«138880_j44538810859952_1_alg».proof.Proof.KernelIdeal.Body0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole staging buffers: the plane tile x and the gate tile g are left as they were, the output tile ends at the
    product of x with g spread over rows and lanes. -/
theorem sound_kernel1 (c : Dev nD) (E : Set ℕ) (i : grid1.Coords)
    (arg3 : Memref sig .tc .vmem S8x128x8x128 .f32) (harg3 : arg3.IsWhole) (arg4 : Memref sig .tc .vmem S8x128 .f32) (harg4 : arg4.IsWhole)
    (arg5 : Memref sig .tc .vmem S8x128x8x128 .f32) (harg5 : arg5.IsWhole)
    (x : Vec F S8x128x8x128 .f32) (g : Vec F S8x128 .f32) (K : PUnit → sProp 𝕄) :
    iprop(owns (c : Thread nD τ) arg3 fullShare x ∗ owns (c : Thread nD τ) arg4 fullShare g ∗ (∃ d, owns (c : Thread nD τ) arg5 fullShare d)
        ∗ (iprop(owns (c : Thread nD τ) arg3 fullShare x ∗ owns (c : Thread nD τ) arg4 fullShare g
            ∗ owns (c : Thread nD τ) arg5 fullShare (k1_pay1 g x)) -∗ K ⟨⟩))
      ⊢ wp frame (wpE (defs₀ (F := F)) Variants.none c none) E (cc1_mul_kernel i arg3 harg3 arg4 harg4 arg5 harg5) K := by
  simp only [cc1_mul_kernel_eq_skeleton]; unfold cc1_mul_kernel_skel
  unfold owns
  iintro ⟨⟨%f3, %hf3, H3⟩, ⟨%f4, %hf4, H4⟩, ⟨%d5, %f5, -, H5⟩, Hk⟩
  subst hf3; subst hf4
  sl_exec
  sl_step
  iapply Hk
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover1 hz4 _ _), View.canon_unit_zero hz4]
  simp only [View.readAt_eq_ld, View.ld_unit_zero (S := S8x128) hz2, View.ld_unit_zero (S := S8x128x8x128) hz4]

section

variable (V : (c : Dev nD) → (b : Ref sig .tc) → Buf (Elt F) ((c : Thread nD τ).loc b))

/-- The second region's proof data on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 1 t) (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 1 t) (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every tile. -/
theorem body_obligation1 (c : Dev nD) : BodyObligation (dat1 (F := F) V c) (defs₀ (F := F)) Variants.none () Set.univ := fun t => by
  rw [bigSep_W1, bigSep_W1]
  exact sound_body1 V c t

end

end Cert.KernelIdeal.Fr

end
-- ==== Proof.KernelIdeal.Run.lean ====
/-
  The whole program as two regions in a row. Between items a core holds every unscoped buffer at a known valuation: the
  launch memory; after the first region the same with the gate's array at what that region's write-back leaves; after the
  second the same with the result array at what its sixty-four write-backs leave. Each region is entered from the
  valuation before it and left at the one after it; the generator register and "nothing owed" ride along. The run's
  post reads the result array and the five argument arrays off the last valuation: the arguments walk back to the
  launch memory because both regions only read them.
-/
import proofs.«138880_j44538810859952_1_alg».proof.Proof.Gen.KernelIdeal.Launch
import proofs.«138880_j44538810859952_1_alg».proof.Proof.Gen.KernelIdeal.Skeleton
import proofs.«138880_j44538810859952_1_alg».proof.Proof.Gen.KernelIdeal.Points
import proofs.«138880_j44538810859952_1_alg».proof.Proof.KernelIdeal.Dat0
import proofs.«138880_j44538810859952_1_alg».proof.Proof.KernelIdeal.Dat1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch, -/
abbrev W0 : Dev nD → Valuation τ sig (Elt F) := fun c b => m ((c : Dev nD), b)
abbrev V0 : (c : Dev nD) → (b : Ref sig .tc) → Buf (Elt F) ((c : Thread nD τ).loc b) := fun c b => W0 m c b
/-- after the first region (the gate's array written back once, at the last band), -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- and after the second (the result array written back tile by tile). -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## The arguments end as launched; the gate's array and the result array are the regions' -/

theorem W1_main_arg (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((dat0 (V0 m) c).arrAt_in w hw _).trans (A_eq0 (V0 m) c w))

theorem W2_main_arg0 (c : Dev nD) : W2 m c (Proc.devRef .tc main_arg0) = m ((c : Thread nD τ).loc main_arg0) :=
  calc W2 m c (Proc.devRef .tc main_arg0)
    _ = W1 m c (Proc.devRef .tc main_arg0) := (W2_arr m c 0).trans (((dat1 (V1 m) c).arrAt_in 0 rfl _).trans (A_eq1 (V1 m) c 0))
    _ = W0 m c (Proc.devRef .tc main_arg0) := W1_main_arg m c 0 rfl
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := W1_main_arg m c 1 rfl
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := W1_main_arg m c 2 rfl
    _ = m ((c : Thread nD τ).loc main_arg2) := rfl
theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := W1_main_arg m c 3 rfl
    _ = m ((c : Thread nD τ).loc main_arg3) := rfl
theorem W2_main_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := W1_main_arg m c 4 rfl
    _ = m ((c : Thread nD τ).loc main_arg4) := rfl
/-- The result array after the run is what the second region's write-backs leave, -/
theorem W2_main_v1 (c : Dev nD) : W2 m c (Proc.devRef .tc main_v1) = (dat1 (V1 m) c).arrAt 2 cfg1.N := W2_arr m c 2
/-- whose gate array is what the first region's one write-back left, and whose planes are the launch's. -/
theorem V1_main_v0 (c : Dev nD) : V1 m c main_v0 = (dat0 (V0 m) c).arrAt 5 cfg0.N := W1_arr m c 5
theorem V1_main_arg0 (c : Dev nD) : V1 m c main_arg0 = m ((c : Thread nD τ).loc main_arg0) := W1_main_arg m c 0 rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, faulting nowhere, with
    the result array at what the second region's write-backs leave and each of the five arguments as launched. -/
theorem run_main : θ_run defs (onTc (τ := τ) (main (F := F))) ⟨m, fun _ => 0, ρ⟩ (fun r => ∀ c : Dev nD,
      r.2.mem ((c.tc : Thread nD τ).loc main_v1) = (dat1 (V1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_main_v1 m c),
       (h c _ (mem_uc main_arg0 (by decide))).trans (W2_main_arg0 m c),
       (h c _ (mem_uc main_arg1 (by decide))).trans (W2_main_arg1 m c),
       (h c _ (mem_uc main_arg2 (by decide))).trans (W2_main_arg2 m c),
       (h c _ (mem_uc main_arg3 (by decide))).trans (W2_main_arg3 m c),
       (h c _ (mem_uc main_arg4 (by decide))).trans (W2_main_arg4 m c)⟩)

/-- The frame: the program runs and its five arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.KernelIdeal.Fr

end
-- ==== Proof.KTerm.lean ====
/-
  The kernel's result as one function of its five arguments, in the kernel's own arithmetic. Band h of the planes is rows
  8h .. 8h+7 of every plane; the running sum after band n is zero plus band 0's plane sums, then one band's plane sums
  added at a time; the gate is computed from the sum after band 15; the result is every plane times its channel's gate.
-/
import proofs.«138880_j44538810859952_1_alg».proof.Proof.Gen.KernelIdeal.Skeleton
import Idealize.ShloMosaic.Lib.ValueIdx

noncomputable section

namespace Cert.KernelIdeal.KValue

open Cert.KernelIdeal Cert.KernelIdeal.Gen Idealize.ShloMosaic Idealize.ShloMosaic.ValueIdx

variable {F : FTy → Type} [FloatOps F]

/-- Band h of the planes: rows 8h .. 8h+7 of every one of the 16 x 256 planes. -/
def band (x : FVec F S16x256x128x128 .f32) (h : ℕ) (hh : h < 16) : FVec F S16x256x8x128 .f32 :=
  fun j => x (ix4 (n0 := 16) (n1 := 256) (n2 := 128) (n3 := 128) (j 0) (j 1)
    ⟨8 * h + (j 2).val, by have h2 : (j 2).val < 8 := (j 2).isLt; omega⟩ (j 3))

/-- The running sum after band n. -/
def sumK (x : FVec F S16x256x128x128 .f32) : (n : ℕ) → n < 16 → FVec F S16x256 .f32
  | 0, hn => k0_pay2 (band x 0 hn) (k0_pay1 (F := F))
  | n + 1, hn => k0_pay2 (band x (n + 1) hn) (sumK x n (Nat.lt_of_succ_lt hn))

/-- The gate: the kernel's gate arithmetic on the finished sums. -/
def gateK (x : FVec F S16x256x128x128 .f32) (w1 : FVec F S64x256 .f32) (b1 : FVec F S64 .f32) (w2 : FVec F S256x64 .f32) (b2 : FVec F S256 .f32) : FVec F S16x256 .f32 :=
  k0_pay3 (sumK x 15 (by decide)) w1 b1 w2 b2

/-- Every plane times its channel's gate. -/
def outK (x : FVec F S16x256x128x128 .f32) (g : FVec F S16x256 .f32) : FVec F S16x256x128x128 .f32 :=
  fun i => FloatOps.mulf (x i) (g (ix2 (n0 := 16) (n1 := 256) (i 0) (i 1)))

end Cert.KernelIdeal.KValue

end
-- ==== Proof.KernelIdeal.Value0.lean ====
/-
  What the first region leaves in the gate's array: its one write-back, at the last band, stores the gate computed from
  the running sum after band 15; that running sum is the closed sum sumK of the planes array (every band's block is rows
  8h .. 8h+7 of the planes), and the four parameter windows' blocks are the whole parameter arrays.
-/
import proofs.«138880_j44538810859952_1_alg».proof.Proof.Gen.KernelIdeal.Launch
import proofs.«138880_j44538810859952_1_alg».proof.Proof.Gen.KernelIdeal.Skeleton
import proofs.«138880_j44538810859952_1_alg».proof.Proof.Gen.KernelIdeal.Points
import proofs.«138880_j44538810859952_1_alg».proof.Proof.KernelIdeal.Dat0
import proofs.«138880_j44538810859952_1_alg».proof.Proof.KTerm
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.KValue

variable (V : (c : Dev nD) → (b : Ref sig .tc) → Buf (Elt F) ((c : Thread nD τ).loc b))

/-- Where each window's block sits at band t, decided once over the sixteen bands: the planes' block is block t along the
    rows and block 0 along every other axis; every other window's block is block 0 on every axis. -/
theorem block_index_facts : ∀ t : Fin cfg0.N,
    win0_0.index t (0 : Fin 4) = 0 ∧ win0_0.index t (1 : Fin 4) = 0 ∧ win0_0.index t (2 : Fin 4) = t.val ∧ win0_0.index t (3 : Fin 4) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0 :=
  (by decide +kernel : ∀ t : Fin grid0.N, _)

/-- An entry of the planes' block at band t is the planes array's entry eight t rows further down, same plane, same column. -/
theorem planes_block_apply (c : Dev nD) (t : Fin cfg0.N) (j : S16x256x8x128.Idx) (k : S16x256x128x128.Idx)
    (h0 : (k 0).val = (j 0).val) (h1 : (k 1).val = (j 1).val) (h2 : (k 2).val = 8 * t.val + (j 2).val) (h3 : (k 3).val = (j 3).val) :
    (iblk0 V c 0 t : Vec F S16x256x8x128 .f32) j = (V c main_arg0 : S16x256x128x128.Idx → Elt F .f32) k := by
  obtain ⟨e0, e1, e2, e3, -⟩ := block_index_facts t
  unfold iblk0
  rw [View.read_apply]
  show V c main_arg0 _ = V c main_arg0 _
  congr 1
  funext a
  apply Fin.ext
  match a with
  | ⟨0, _⟩ => show win0_0.index t (0 : Fin 4) * 16 + 1 * (j 0).val = (k 0).val; rw [e0, h0]; omega
  | ⟨1, _⟩ => show win0_0.index t (1 : Fin 4) * 256 + 1 * (j 1).val = (k 1).val; rw [e1, h1]; omega
  | ⟨2, _⟩ => show win0_0.index t (2 : Fin 4) * 8 + 1 * (j 2).val = (k 2).val; rw [e2, h2]; omega
  | ⟨3, _⟩ => show win0_0.index t (3 : Fin 4) * 128 + 1 * (j 3).val = (k 3).val; rw [e3, h3]; omega

/-- The planes' block at band n is band n of the planes array. -/
theorem planes_block_eq (c : Dev nD) (n : ℕ) (hn : n < cfg0.N) (hn' : n < 16) :
    (iblk0 V c 0 ⟨n, hn⟩ : Vec F S16x256x8x128 .f32) = band (V c main_arg0) n hn' := by
  funext j
  unfold band
  exact planes_block_apply V c ⟨n, hn⟩ j _ rfl rfl rfl rfl

/-- The first weights' block is the whole array, at every band. -/
theorem w1_block_eq (c : Dev nD) (t : Fin cfg0.N) : (iblk0 V c 1 t : Vec F S64x256 .f32) = V c main_arg1 := by
  obtain ⟨-, -, -, -, e0, e1, -⟩ := block_index_facts t
  funext j
  unfold iblk0
  rw [View.read_apply]
  show V c main_arg1 _ = V c main_arg1 j
  congr 1
  funext a
  apply Fin.ext
  match a with
  | ⟨0, _⟩ => show win0_1.index t (0 : Fin 2) * 64 + 1 * (j 0).val = (j 0).val; rw [e0]; omega
  | ⟨1, _⟩ => show win0_1.index t (1 : Fin 2) * 256 + 1 * (j 1).val = (j 1).val; rw [e1]; omega

/-- The first bias's block is the whole array. -/
theorem b1_block_eq (c : Dev nD) (t : Fin cfg0.N) : (iblk0 V c 2 t : Vec F S64 .f32) = V c main_arg2 := by
  obtain ⟨-, -, -, -, -, -, e0, -⟩ := block_index_facts t
  funext j
  unfold iblk0
  rw [View.read_apply]
  show V c main_arg2 _ = V c main_arg2 j
  congr 1
  funext a
  apply Fin.ext
  match a with
  | ⟨0, _⟩ => show win0_2.index t (0 : Fin 1) * 64 + 1 * (j 0).val = (j 0).val; rw [e0]; omega

/-- The second weights' block is the whole array. -/
theorem w2_block_eq (c : Dev nD) (t : Fin cfg0.N) : (iblk0 V c 3 t : Vec F S256x64 .f32) = V c main_arg3 := by
  obtain ⟨-, -, -, -, -, -, -, e0, e1, -⟩ := block_index_facts t
  funext j
  unfold iblk0
  rw [View.read_apply]
  show V c main_arg3 _ = V c main_arg3 j
  congr 1
  funext a
  apply Fin.ext
  match a with
  | ⟨0, _⟩ => show win0_3.index t (0 : Fin 2) * 256 + 1 * (j 0).val = (j 0).val; rw [e0]; omega
  | ⟨1, _⟩ => show win0_3.index t (1 : Fin 2) * 64 + 1 * (j 1).val = (j 1).val; rw [e1]; omega

/-- The second bias's block is the whole array. -/
theorem b2_block_eq (c : Dev nD) (t : Fin cfg0.N) : (iblk0 V c 4 t : Vec F S256 .f32) = V c main_arg4 := by
  obtain ⟨-, -, -, -, -, -, -, -, -, e0, -⟩ := block_index_facts t
  funext j
  unfold iblk0
  rw [View.read_apply]
  show V c main_arg4 _ = V c main_arg4 j
  congr 1
  funext a
  apply Fin.ext
  match a with
  | ⟨0, _⟩ => show win0_4.index t (0 : Fin 1) * 256 + 1 * (j 0).val = (j 0).val; rw [e0]; omega
/-- The running sum the region keeps is the closed running sum of the planes array's bands. -/
theorem sumAt_eq_sumK (c : Dev nD) : ∀ (n : ℕ) (hn : n < cfg0.N) (hn' : n < 16), sumAt V c n hn = sumK (V c main_arg0) n hn'
  | 0, hn, hn' => by
    rw [sumAt, sumK, planes_block_eq V c 0 hn hn']
  | n + 1, hn, hn' => by
    rw [sumAt, sumK, planes_block_eq V c (n + 1) hn hn', sumAt_eq_sumK c n (Nat.lt_of_succ_lt hn) (Nat.lt_of_succ_lt hn')]

/-- At the last band the gate the body computes is the gate of the five argument arrays. -/
theorem gateAt_last (c : Dev nD) (t : Fin cfg0.N) (h15 : t.val = 15) :
    gateAt V c t = gateK (V c main_arg0) (V c main_arg1) (V c main_arg2) (V c main_arg3) (V c main_arg4) := by
  unfold gateAt gateK
  rw [w1_block_eq V c t, b1_block_eq V c t, w2_block_eq V c t, b2_block_eq V c t]
  obtain ⟨n, hn⟩ := t
  dsimp only at h15
  subst h15
  rw [sumAt_eq_sumK V c 15 hn (by decide)]

/-- What the one write-back writes is the gate of the argument arrays, read through the block at that band. -/
theorem gate_flushed (c : Dev nD) (t : Fin cfg0.N) (hf : (cfg0.win 5).flush t = true) :
    (dat0 V c).flushed 5 t = ((cfg0.win 5).blk t).view.read (Elt F)
      (gateK (V c main_arg0) (V c main_arg1) (V c main_arg2) (V c main_arg3) (V c main_arg4)) := by
  have h15 : t.val = 15 := by
    have h := (flush0_5 t).mp hf
    have hlt := t.isLt
    have hN : cfg0.N = 16 := N_0
    omega
  show (cfg0.win 5).cut (grid0.coords t) ((dat0 V c).after 5 t) = _
  rw [after0_5, gateAt_last V c t h15]
  obtain ⟨-, -, -, -, -, -, -, -, -, -, e0, e1⟩ := block_index_facts t
  funext j
  rw [View.read_apply]
  refine congrArg (gateK (V c main_arg0) (V c main_arg1) (V c main_arg2) (V c main_arg3) (V c main_arg4)) ?_
  funext a
  apply Fin.ext
  match a with
  | ⟨0, _⟩ => show (j 0).val = win0_5.index t (0 : Fin 2) * 16 + 1 * (j 0).val; rw [e0]; omega
  | ⟨1, _⟩ => show (j 1).val = win0_5.index t (1 : Fin 2) * 256 + 1 * (j 1).val; rw [e1]; omega

/-- An index of the gate's array lies in the block of band t iff each coordinate lies in the block's range on its axis. -/
theorem mem_gate_block (t : Fin cfg0.N) (i : S16x256.Idx) :
    i ∈ ((cfg0.win 5).blk t).view.set ↔ ∀ a : Fin 2, win0_5.index t a * S16x256.size a ≤ (i a).val ∧ (i a).val < win0_5.index t a * S16x256.size a + S16x256.size a := by
  show i ∈ ((View.whole main_v0).slice (win0_5.rect t)).set ↔ _
  rw [View.set_slice_whole, Rect.mem_set_unit]
  exact Iff.rfl

/-- After the first region the gate's array holds the kernel's gate of the five argument arrays as the region found them. -/
theorem gate_final (c : Dev nD) :
    (dat0 V c).arrAt 5 cfg0.N = gateK (V c main_arg0) (V c main_arg1) (V c main_arg2) (V c main_arg3) (V c main_arg4) := by
  have hN : cfg0.N = 16 := N_0
  refine (dat0 V c).arrAt_eq_of_cover 5 _ (fun t hf => gate_flushed V c t hf) fun i => ?_
  refine ⟨⟨15, by rw [hN]; decide⟩, (flush0_5 _).mpr rfl, ?_⟩
  obtain ⟨-, -, -, -, -, -, -, -, -, -, e0, e1⟩ := block_index_facts ⟨15, by rw [hN]; decide⟩
  rw [mem_gate_block]
  intro a
  have h0 : (i 0).val < 16 := (i 0).isLt
  have h1 : (i 1).val < 256 := (i 1).isLt
  match a with
  | ⟨0, _⟩ => show win0_5.index _ (0 : Fin 2) * 16 ≤ (i 0).val ∧ (i 0).val < win0_5.index _ (0 : Fin 2) * 16 + 16; rw [e0]; omega
  | ⟨1, _⟩ => show win0_5.index _ (1 : Fin 2) * 256 ≤ (i 1).val ∧ (i 1).val < win0_5.index _ (1 : Fin 2) * 256 + 256; rw [e1]; omega

end Cert.KernelIdeal.Fr

end
-- ==== Proof.KernelIdeal.Value1.lean ====
/-
  What the second region leaves in the result array: its sixty-four tiles cover the array, and the tile written back at
  grid point t is the planes' tile times the gate's tile spread over rows and lanes; so every element of the result is
  the planes' element times its channel's gate.
-/
import proofs.«138880_j44538810859952_1_alg».proof.Proof.Gen.KernelIdeal.Launch
import proofs.«138880_j44538810859952_1_alg».proof.Proof.Gen.KernelIdeal.Skeleton
import proofs.«138880_j44538810859952_1_alg».proof.Proof.Gen.KernelIdeal.Points
import proofs.«138880_j44538810859952_1_alg».proof.Proof.KernelIdeal.Dat1
import proofs.«138880_j44538810859952_1_alg».proof.Proof.KTerm
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.KValue Idealize.ShloMosaic.ValueIdx

/-- The gate's tile cast to [8,128,1,1] and spread over rows and lanes reads, at (p,q,r,l), the gate's tile at (p,q). -/
theorem gate_spread_apply (g : Vec F S8x128 .f32) (p : Fin 8) (q : Fin 128) (r : Fin 8) (l : Fin 128) :
    broadcastTo S8x128x8x128 (shapeCast S8x128x1x1 (shapeCast S8x128x1x1 (shapeCast S8x128 g shapeCasts_S8x128_S8x128) shapeCasts_S8x128_S8x128x1x1) shapeCasts_S8x128x1x1_S8x128x1x1) broadcasts_S8x128x1x1_S8x128x8x128 (ix4 p q r l) = g (ix2 p q) := by
  rw [shapeCast_self (shapeCast S8x128x1x1 _ _), shapeCast_self g]
  refine (broadcastTo_apply _ _ (ix4 p q r l) (ix4 p q (0 : Fin 1) (0 : Fin 1)) (fun a => ?_)).trans ?_
  · match a with
    | ⟨0, _⟩ => rfl
    | ⟨1, _⟩ => rfl
    | ⟨2, _⟩ => rfl
    | ⟨3, _⟩ => rfl
  · refine shapeCast_apply g _ (ix4 p q (0 : Fin 1) (0 : Fin 1)) (ix2 p q) ?_
    rw [Shape.rowMajor_val_two, Shape.rowMajor_val_four]
    show p.val * 128 + q.val = ((p.val * 128 + q.val) * 1 + 0) * 1 + 0
    omega

/-- The body's arithmetic at one element: the planes' tile there times the gate's tile at the element's image and channel. -/
theorem product_pay_apply (g : Vec F S8x128 .f32) (x : Vec F S8x128x8x128 .f32) (p : Fin 8) (q : Fin 128) (r : Fin 8) (l : Fin 128) :
    k1_pay1 g x (ix4 p q r l) = FloatOps.mulf (x (ix4 p q r l)) (g (ix2 p q)) := by
  unfold k1_pay1
  exact congrArg (FloatOps.mulf (x (ix4 p q r l))) (gate_spread_apply g p q r l)

variable (V : (c : Dev nD) → (b : Ref sig .tc) → Buf (Elt F) ((c : Thread nD τ).loc b))

/-- A tile of the result, element by element: when the planes' tile and the gate's tile are the arrays read at the block
    offsets (b0, b1, b2), the body's arithmetic at a tile element is the whole-array product at the element's place. -/
theorem product_tile_apply (X : FVec F S16x256x128x128 .f32) (G : FVec F S16x256 .f32)
    (x : Vec F S8x128x8x128 .f32) (g : Vec F S8x128 .f32) (b0 b1 b2 : ℕ)
    (hx : ∀ (j : S8x128x8x128.Idx) (i : S16x256x128x128.Idx), (i 0).val = b0 * 8 + (j 0).val → (i 1).val = b1 * 128 + (j 1).val →
      (i 2).val = b2 * 8 + (j 2).val → (i 3).val = (j 3).val → x j = X i)
    (hg : ∀ (j : S8x128.Idx) (i : S16x256.Idx), (i 0).val = b0 * 8 + (j 0).val → (i 1).val = b1 * 128 + (j 1).val → g j = G i)
    (j : S8x128x8x128.Idx) (i : S16x256x128x128.Idx) (h0 : (i 0).val = b0 * 8 + (j 0).val) (h1 : (i 1).val = b1 * 128 + (j 1).val)
    (h2 : (i 2).val = b2 * 8 + (j 2).val) (h3 : (i 3).val = (j 3).val) :
    k1_pay1 g x j = outK X G i := by
  obtain ⟨p, q, r, l, rfl⟩ : ∃ (p : Fin 8) (q : Fin 128) (r : Fin 8) (l : Fin 128), j = ix4 p q r l := ⟨j 0, j 1, j 2, j 3, eq_ix4 j⟩
  rw [product_pay_apply]
  unfold outK
  rw [hx (ix4 p q r l) i h0 h1 h2 h3, hg (ix2 p q) (ix2 (n0 := 16) (n1 := 256) (i 0) (i 1)) h0 h1]

/-- The printed index maps, decided over the sixty-four grid points: the planes' tile and the result's tile have the same
    block indices, the gate's tile has the result's first two, and the result's block indices are (image half, channel half,
    row band, 0). -/
theorem tile_index_facts : ∀ t : Fin cfg1.N,
    win1_0.index t (0 : Fin 4) = win1_2.index t (0 : Fin 4)
    ∧ win1_0.index t (1 : Fin 4) = win1_2.index t (1 : Fin 4)
    ∧ win1_0.index t (2 : Fin 4) = win1_2.index t (2 : Fin 4)
    ∧ win1_0.index t (3 : Fin 4) = win1_2.index t (3 : Fin 4)
    ∧ win1_1.index t (0 : Fin 2) = win1_2.index t (0 : Fin 4)
    ∧ win1_1.index t (1 : Fin 2) = win1_2.index t (1 : Fin 4)
    ∧ win1_2.index t (0 : Fin 4) ≤ 1 ∧ win1_2.index t (1 : Fin 4) ≤ 1 ∧ win1_2.index t (2 : Fin 4) ≤ 15
    ∧ win1_2.index t (3 : Fin 4) = 0 :=
  (by decide +kernel : ∀ t : Fin grid1.N, _)

/-- Every (image half, channel half, row band) is some grid point's tile. -/
theorem tile_index_onto : ∀ (q0 : Fin 2) (q1 : Fin 2) (q2 : Fin 16), ∃ t : Fin cfg1.N, win1_2.index t = ![q0.val, q1.val, q2.val, 0] :=
  (by decide +kernel : ∀ (q0 : Fin 2) (q1 : Fin 2) (q2 : Fin 16), ∃ t : Fin grid1.N, win1_2.index t = ![q0.val, q1.val, q2.val, 0])

/-- What grid point t writes back is tile t of the whole-array product: each input tile sits in its array where the result's
    tile sits in the result (coordinate = block index times tile size plus the coordinate inside the tile). -/
theorem product_flushed (c : Dev nD) (t : Fin cfg1.N) :
    (dat1 V c).flushed 2 t = ((cfg1.win 2).blk t).view.read (Elt F) (outK (V c main_arg0) (V c main_v0)) := by
  show (cfg1.win 2).cut (grid1.coords t) ((dat1 V c).after 2 t) = _
  rw [after1_2]
  obtain ⟨e00, e01, e02, e03, e10, e11, b0, b1, b2, b3⟩ := tile_index_facts t
  funext j
  show k1_pay1 (iblk1 V c 1 t) (iblk1 V c 0 t) j = outK (V c main_arg0) (V c main_v0) (((cfg1.win 2).blk t).view.emb j)
  refine product_tile_apply (V c main_arg0) (V c main_v0) (iblk1 V c 0 t) (iblk1 V c 1 t)
    (win1_2.index t (0 : Fin 4)) (win1_2.index t (1 : Fin 4)) (win1_2.index t (2 : Fin 4)) ?_ ?_ j (((cfg1.win 2).blk t).view.emb j) ?_ ?_ ?_ ?_
  · intro y i h0 h1 h2 h3
    show V c main_arg0 (((cfg1.win 0).blk t).view.emb y) = V c main_arg0 i
    refine congrArg (V c main_arg0) (funext fun a => Fin.ext ?_)
    match a with
    | ⟨0, _⟩ => show win1_0.index t (0 : Fin 4) * 8 + 1 * (y 0).val = (i 0).val; omega
    | ⟨1, _⟩ => show win1_0.index t (1 : Fin 4) * 128 + 1 * (y 1).val = (i 1).val; omega
    | ⟨2, _⟩ => show win1_0.index t (2 : Fin 4) * 8 + 1 * (y 2).val = (i 2).val; omega
    | ⟨3, _⟩ => show win1_0.index t (3 : Fin 4) * 128 + 1 * (y 3).val = (i 3).val; omega
  · intro y i h0 h1
    show V c main_v0 (((cfg1.win 1).blk t).view.emb y) = V c main_v0 i
    refine congrArg (V c main_v0) (funext fun a => Fin.ext ?_)
    match a with
    | ⟨0, _⟩ => show win1_1.index t (0 : Fin 2) * 8 + 1 * (y 0).val = (i 0).val; omega
    | ⟨1, _⟩ => show win1_1.index t (1 : Fin 2) * 128 + 1 * (y 1).val = (i 1).val; omega
  · show win1_2.index t (0 : Fin 4) * 8 + 1 * (j 0).val = win1_2.index t (0 : Fin 4) * 8 + (j 0).val; omega
  · show win1_2.index t (1 : Fin 4) * 128 + 1 * (j 1).val = win1_2.index t (1 : Fin 4) * 128 + (j 1).val; omega
  · show win1_2.index t (2 : Fin 4) * 8 + 1 * (j 2).val = win1_2.index t (2 : Fin 4) * 8 + (j 2).val; omega
  · show win1_2.index t (3 : Fin 4) * 128 + 1 * (j 3).val = (j 3).val; omega

/-- An element of the result is in grid point t's tile iff each coordinate is in the tile's range on its axis. -/
theorem mem_product_tile (t : Fin cfg1.N) (i : S16x256x128x128.Idx) :
    i ∈ ((cfg1.win 2).blk t).view.set ↔ ∀ a : Fin 4, win1_2.index t a * S8x128x8x128.size a ≤ (i a).val
      ∧ (i a).val < win1_2.index t a * S8x128x8x128.size a + S8x128x8x128.size a := by
  show i ∈ ((View.whole main_v1).slice (win1_2.rect t)).set ↔ _
  rw [View.set_slice_whole, Rect.mem_set_unit]
  exact Iff.rfl

/-- The sixty-four tiles cover the result: element (b, ch, h, l) is in the tile of the point whose block indices are
    (b / 8, ch / 128, h / 8, 0). -/
theorem product_tiles_cover (i : S16x256x128x128.Idx) :
    ∃ t : Fin cfg1.N, (cfg1.win 2).flush t = true ∧ i ∈ ((cfg1.win 2).blk t).view.set := by
  have hi0 : (i 0).val < 16 := (i 0).isLt
  have hi1 : (i 1).val < 256 := (i 1).isLt
  have hi2 : (i 2).val < 128 := (i 2).isLt
  have hi3 : (i 3).val < 128 := (i 3).isLt
  obtain ⟨t, ht⟩ := tile_index_onto ⟨(i 0).val / 8, by omega⟩ ⟨(i 1).val / 128, by omega⟩ ⟨(i 2).val / 8, by omega⟩
  have q0 : win1_2.index t (0 : Fin 4) = (i 0).val / 8 := congrFun ht 0
  have q1 : win1_2.index t (1 : Fin 4) = (i 1).val / 128 := congrFun ht 1
  have q2 : win1_2.index t (2 : Fin 4) = (i 2).val / 8 := congrFun ht 2
  have q3 : win1_2.index t (3 : Fin 4) = 0 := congrFun ht 3
  refine ⟨t, flush1_2 t, ?_⟩
  rw [mem_product_tile]
  intro a
  match a with
  | ⟨0, _⟩ => show win1_2.index t (0 : Fin 4) * 8 ≤ (i 0).val ∧ (i 0).val < win1_2.index t (0 : Fin 4) * 8 + 8; omega
  | ⟨1, _⟩ => show win1_2.index t (1 : Fin 4) * 128 ≤ (i 1).val ∧ (i 1).val < win1_2.index t (1 : Fin 4) * 128 + 128; omega
  | ⟨2, _⟩ => show win1_2.index t (2 : Fin 4) * 8 ≤ (i 2).val ∧ (i 2).val < win1_2.index t (2 : Fin 4) * 8 + 8; omega
  | ⟨3, _⟩ => show win1_2.index t (3 : Fin 4) * 128 ≤ (i 3).val ∧ (i 3).val < win1_2.index t (3 : Fin 4) * 128 + 128; omega

/-- After the second region the result array holds, element by element, the planes' array times the gate array's
    entry of the element's image and channel, both as the region found them. -/
theorem out_final (c : Dev nD) :
    (dat1 V c).arrAt 2 cfg1.N = outK (V c main_arg0) (V c main_v0) :=
  (dat1 V c).arrAt_eq_of_cover 2 (outK (V c main_arg0) (V c main_v0)) (fun t _ => product_flushed V c t) product_tiles_cover

end Cert.KernelIdeal.Fr

end
-- ==== Proof.KernelIdeal.KernelValue.lean ====
/-
  The idealized kernel's run with its result named: the result array after the run is what the second region's write-backs
  leave, which is every plane of the launch's planes array times its channel's entry of the gate array the first region
  left, which is the kernel's gate of the five launch arrays.
-/
import proofs.«138880_j44538810859952_1_alg».proof.Proof.Gen.KernelIdeal.Launch
import proofs.«138880_j44538810859952_1_alg».proof.Proof.Gen.KernelIdeal.Skeleton
import proofs.«138880_j44538810859952_1_alg».proof.Proof.Gen.KernelIdeal.Points
import proofs.«138880_j44538810859952_1_alg».proof.Proof.KernelIdeal.Run
import proofs.«138880_j44538810859952_1_alg».proof.Proof.KernelIdeal.Value0
import proofs.«138880_j44538810859952_1_alg».proof.Proof.KernelIdeal.Value1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.KValue

variable (m : (ℓ : Loc nD τ sig) → Buf (Elt F) ℓ) (ρ : Dev nD → PrngReg)

/-- The result array after the run, as one function of the launch memory's five arrays. -/
theorem kernel_value (c : Dev nD) :
    (dat1 (V1 m) c).arrAt 2 cfg1.N
      = outK (m ((c.tc : Thread nD τ).loc main_arg0))
          (gateK (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))) := by
  rw [out_final (V1 m) c, V1_main_arg0 m c, V1_main_v0 m c, gate_final (V0 m) c]

/-- THE VALUE RUN: the program terminates with its result at that function and its arguments unchanged. -/
theorem value_run : θ_run defs (onTc (τ := τ) (main (F := F))) ⟨m, fun _ => 0, ρ⟩ (fun r => ∀ c : Dev nD,
      r.2.mem ((c.tc : Thread nD τ).loc main_v1)
        = outK (m ((c.tc : Thread nD τ).loc main_arg0))
            (gateK (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (kernel_value m c), (h c).2⟩) (run_main m ρ)

end Cert.KernelIdeal.Fr

end
-- ==== Proof.RefTerm.lean ====
/-
  The reference as one function of its five arguments, in the reference's own operations and in their order: the mean
  of every 128 x 128 plane, the first dense layer with its leaky rectifier (slope 0.2, chosen by "at least zero"),
  the second dense layer, the logistic function spelt as one over one plus the exponential of the negated argument,
  and the planes scaled by their channel's gate.
-/
import proofs.«138880_j44538810859952_1_alg».proof.Proof.Gen.ReferenceIdeal

noncomputable section

namespace Cert.ReferenceIdeal.RefValue

open Cert.ReferenceIdeal Cert.ReferenceIdeal.Gen Idealize.ShloMosaic

variable {F : FTy → Type} [FloatOps F]

/-- Every plane's mean: the sum over rows and lanes from zero, divided by 16384. -/
def meanR (x : FVec F S16x256x128x128 .f32) : FVec F S16x256 .f32 :=
  Host.divf (Host.reduceAdd x (constant S_ .f32 0x00000000#32) reducesTo_S16x256x128x128_S16x256_d2_3 h_S_)
    (broadcastInDim S16x256 ![] bcast_S_S16x256 (constant S_ .f32 0x46800000#32))

/-- The first layer before its rectifier: the means against the rows of w1, plus b1. -/
def preR (x : FVec F S16x256x128x128 .f32) (w1 : FVec F S64x256 .f32) (b1 : FVec F S64 .f32) : FVec F S16x64 .f32 :=
  addf (Host.dotGeneral dot_S16x256_S64x256_S16x64_1_1_0_0_n_n none (meanR x) w1)
    (broadcastInDim S16x64 ![0, 1] bcast_S1x64_S16x64_0_1 (broadcastInDim S1x64 ![1] bcast_S64_S1x64_1 b1))

/-- The leaky rectifier: the value itself where it is at least zero, a fifth of it elsewhere. -/
def leakyR (h : FVec F S16x64 .f32) : FVec F S16x64 .f32 :=
  select (cmpf .oge h (broadcastInDim S16x64 ![] bcast_S_S16x64 (constant S_ .f32 0x00000000#32))) h
    (mulf (broadcastInDim S16x64 ![] bcast_S_S16x64 (id (constant S_ .f32 0x3E4CCCCD#32))) h)

/-- The second layer before the logistic function: the rectified first layer against the rows of w2, plus b2. -/
def logitR (x : FVec F S16x256x128x128 .f32) (w1 : FVec F S64x256 .f32) (b1 : FVec F S64 .f32) (w2 : FVec F S256x64 .f32) (b2 : FVec F S256 .f32) : FVec F S16x256 .f32 :=
  addf (Host.dotGeneral dot_S16x64_S256x64_S16x256_1_1_0_0_n_n none (leakyR (preR x w1 b1)) w2)
    (broadcastInDim S16x256 ![0, 1] bcast_S1x256_S16x256_0_1 (broadcastInDim S1x256 ![1] bcast_S256_S1x256_1 b2))

/-- The gate: one over one plus the exponential of the negated second layer. -/
def gateR (x : FVec F S16x256x128x128 .f32) (w1 : FVec F S64x256 .f32) (b1 : FVec F S64 .f32) (w2 : FVec F S256x64 .f32) (b2 : FVec F S256 .f32) : FVec F S16x256 .f32 :=
  Host.divf (broadcastInDim S16x256 ![] bcast_S_S16x256 (constant S_ .f32 0x3F800000#32))
    (addf (broadcastInDim S16x256 ![] bcast_S_S16x256 (constant S_ .f32 0x3F800000#32)) (Host.exp (Host.negf (logitR x w1 b1 w2 b2))))

/-- The result: every plane times its channel's gate. -/
def outR (x : FVec F S16x256x128x128 .f32) (w1 : FVec F S64x256 .f32) (b1 : FVec F S64 .f32) (w2 : FVec F S256x64 .f32) (b2 : FVec F S256 .f32) : FVec F S16x256x128x128 .f32 :=
  mulf x (broadcastInDim S16x256x128x128 ![0, 1, 2, 3] bcast_S16x256x1x1_S16x256x128x128_0_1_2_3
    (broadcastInDim S16x256x1x1 ![0, 1] bcast_S16x256_S16x256x1x1_0_1 (gateR x w1 b1 w2 b2)))

end Cert.ReferenceIdeal.RefValue

end
-- ==== Proof.RefRun.lean ====
/-
  The reference's run read back: its @main is a straight line of host operations (the leaky rectifier's and the
  selection's bodies inlined where they are called), so every weakly fair execution ends with the result buffer at the
  composed function outR of the five arguments, and the arguments unchanged.
-/
import proofs.«138880_j44538810859952_1_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's thirty-two operations, in order. The first ten are @main's own, up to the slope constant. The next seven
    are the leaky rectifier's body over the buffers of its one call: the zero, its broadcast, the comparison
    "at least zero", the slope's change of format (the identity), its broadcast, the product with the argument, and
    the selection's one operation, which writes the call's result. The last fifteen are @main's own again: the second
    dense layer, the logistic function and the scaling of the planes. -/
abbrev ops : List (HloOp τ sig (Elt F)) :=
  [ nullary main_cst (constant S_ .f32 0x00000000#32),
    binary main_arg0 main_cst main_v0 ((fun x v => Host.reduceAdd x v reducesTo_S16x256x128x128_S16x256_d2_3 h_S_) : (⟨S16x256x128x128, .f32⟩ : BufTy).Contents (Elt F) → (⟨S_, .f32⟩ : BufTy).Contents (Elt F) → (⟨S16x256, .f32⟩ : BufTy).Contents (Elt F)),
    nullary main_cst_0 (constant S_ .f32 0x46800000#32),
    unary main_cst_0 main_v1 (broadcastInDim S16x256 ![] bcast_S_S16x256 : (⟨S_, .f32⟩ : BufTy).Contents (Elt F) → (⟨S16x256, .f32⟩ : BufTy).Contents (Elt F)),
    binary main_v0 main_v1 main_v2 (Host.divf : (⟨S16x256, .f32⟩ : BufTy).Contents (Elt F) → (⟨S16x256, .f32⟩ : BufTy).Contents (Elt F) → (⟨S16x256, .f32⟩ : BufTy).Contents (Elt F)),
    binary main_v2 main_arg1 main_v3 ((fun l r => Host.dotGeneral dot_S16x256_S64x256_S16x64_1_1_0_0_n_n none l r) : (⟨S16x256, .f32⟩ : BufTy).Contents (Elt F) → (⟨S64x256, .f32⟩ : BufTy).Contents (Elt F) → (⟨S16x64, .f32⟩ : BufTy).Contents (Elt F)),
    unary main_arg2 main_v4 (broadcastInDim S1x64 ![1] bcast_S64_S1x64_1 : (⟨S64, .f32⟩ : BufTy).Contents (Elt F) → (⟨S1x64, .f32⟩ : BufTy).Contents (Elt F)),
    unary main_v4 main_v5 (broadcastInDim S16x64 ![0, 1] bcast_S1x64_S16x64_0_1 : (⟨S1x64, .f32⟩ : BufTy).Contents (Elt F) → (⟨S16x64, .f32⟩ : BufTy).Contents (Elt F)),
    binary main_v3 main_v5 main_v6 (addf : (⟨S16x64, .f32⟩ : BufTy).Contents (Elt F) → (⟨S16x64, .f32⟩ : BufTy).Contents (Elt F) → (⟨S16x64, .f32⟩ : BufTy).Contents (Elt F)),
    nullary main_cst_1 (constant S_ .f32 0x3E4CCCCD#32),
    nullary main_call0_cst (constant S_ .f32 0x00000000#32),
    unary main_call0_cst main_call0_v0 (broadcastInDim S16x64 ![] bcast_S_S16x64 : (⟨S_, .f32⟩ : BufTy).Contents (Elt F) → (⟨S16x64, .f32⟩ : BufTy).Contents (Elt F)),
    binary main_v6 main_call0_v0 main_call0_v1 (cmpf .oge : (⟨S16x64, .f32⟩ : BufTy).Contents (Elt F) → (⟨S16x64, .f32⟩ : BufTy).Contents (Elt F) → (⟨S16x64, .i1⟩ : BufTy).Contents (Elt F)),
    unary main_cst_1 main_call0_v2 (id : (⟨S_, .f32⟩ : BufTy).Contents (Elt F) → (⟨S_, .f32⟩ : BufTy).Contents (Elt F)),
    unary main_call0_v2 main_call0_v3 (broadcastInDim S16x64 ![] bcast_S_S16x64 : (⟨S_, .f32⟩ : BufTy).Contents (Elt F) → (⟨S16x64, .f32⟩ : BufTy).Contents (Elt F)),
    binary main_call0_v3 main_v6 main_call0_v4 (mulf : (⟨S16x64, .f32⟩ : BufTy).Contents (Elt F) → (⟨S16x64, .f32⟩ : BufTy).Contents (Elt F) → (⟨S16x64, .f32⟩ : BufTy).Contents (Elt F)),
    ternary main_call0_v1 main_v6 main_call0_v4 main_v7 (select : (⟨S16x64, .i1⟩ : BufTy).Contents (Elt F) → (⟨S16x64, .f32⟩ : BufTy).Contents (Elt F) → (⟨S16x64, .f32⟩ : BufTy).Contents (Elt F) → (⟨S16x64, .f32⟩ : BufTy).Contents (Elt F)),
    binary main_v7 main_arg3 main_v8 ((fun l r => Host.dotGeneral dot_S16x64_S256x64_S16x256_1_1_0_0_n_n none l r) : (⟨S16x64, .f32⟩ : BufTy).Contents (Elt F) → (⟨S256x64, .f32⟩ : BufTy).Contents (Elt F) → (⟨S16x256, .f32⟩ : BufTy).Contents (Elt F)),
    unary main_arg4 main_v9 (broadcastInDim S1x256 ![1] bcast_S256_S1x256_1 : (⟨S256, .f32⟩ : BufTy).Contents (Elt F) → (⟨S1x256, .f32⟩ : BufTy).Contents (Elt F)),
    unary main_v9 main_v10 (broadcastInDim S16x256 ![0, 1] bcast_S1x256_S16x256_0_1 : (⟨S1x256, .f32⟩ : BufTy).Contents (Elt F) → (⟨S16x256, .f32⟩ : BufTy).Contents (Elt F)),
    binary main_v8 main_v10 main_v11 (addf : (⟨S16x256, .f32⟩ : BufTy).Contents (Elt F) → (⟨S16x256, .f32⟩ : BufTy).Contents (Elt F) → (⟨S16x256, .f32⟩ : BufTy).Contents (Elt F)),
    unary main_v11 main_v12 (Host.negf : (⟨S16x256, .f32⟩ : BufTy).Contents (Elt F) → (⟨S16x256, .f32⟩ : BufTy).Contents (Elt F)),
    unary main_v12 main_v13 (Host.exp : (⟨S16x256, .f32⟩ : BufTy).Contents (Elt F) → (⟨S16x256, .f32⟩ : BufTy).Contents (Elt F)),
    nullary main_cst_2 (constant S_ .f32 0x3F800000#32),
    unary main_cst_2 main_v14 (broadcastInDim S16x256 ![] bcast_S_S16x256 : (⟨S_, .f32⟩ : BufTy).Contents (Elt F) → (⟨S16x256, .f32⟩ : BufTy).Contents (Elt F)),
    binary main_v14 main_v13 main_v15 (addf : (⟨S16x256, .f32⟩ : BufTy).Contents (Elt F) → (⟨S16x256, .f32⟩ : BufTy).Contents (Elt F) → (⟨S16x256, .f32⟩ : BufTy).Contents (Elt F)),
    nullary main_cst_3 (constant S_ .f32 0x3F800000#32),
    unary main_cst_3 main_v16 (broadcastInDim S16x256 ![] bcast_S_S16x256 : (⟨S_, .f32⟩ : BufTy).Contents (Elt F) → (⟨S16x256, .f32⟩ : BufTy).Contents (Elt F)),
    binary main_v16 main_v15 main_v17 (Host.divf : (⟨S16x256, .f32⟩ : BufTy).Contents (Elt F) → (⟨S16x256, .f32⟩ : BufTy).Contents (Elt F) → (⟨S16x256, .f32⟩ : BufTy).Contents (Elt F)),
    unary main_v17 main_v18 (broadcastInDim S16x256x1x1 ![0, 1] bcast_S16x256_S16x256x1x1_0_1 : (⟨S16x256, .f32⟩ : BufTy).Contents (Elt F) → (⟨S16x256x1x1, .f32⟩ : BufTy).Contents (Elt F)),
    unary main_v18 main_v19 (broadcastInDim S16x256x128x128 ![0, 1, 2, 3] bcast_S16x256x1x1_S16x256x128x128_0_1_2_3 : (⟨S16x256x1x1, .f32⟩ : BufTy).Contents (Elt F) → (⟨S16x256x128x128, .f32⟩ : BufTy).Contents (Elt F)),
    binary main_arg0 main_v19 main_v20 (mulf : (⟨S16x256x128x128, .f32⟩ : BufTy).Contents (Elt F) → (⟨S16x256x128x128, .f32⟩ : BufTy).Contents (Elt F) → (⟨S16x256x128x128, .f32⟩ : BufTy).Contents (Elt F)) ]

-- the chain is thirty-two steps deep, and re-associating it descends once per step
set_option maxRecDepth 1024 in
/-- @main is that straight line: with the two functions' definitions unfolded at their calls and sequencing
    re-associated, both sides are one chain of the same thirty-two steps; a typed reference made from a literal
    buffer carries the buffer's own type, so moving contents along that equation is the identity. -/
theorem main_eq (c : Dev nD) : main (F := F) c = seq ops := by
  simp only [main, fn_leaky_relu.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., binary_bufs_sub ..,
    unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    unary_bufs_sub .., unary_bufs_sub .., binary_bufs_sub ..⟩

/-- The fold at the result buffer: each operation's value read at its own result buffer and every other buffer left as
    it was, the composed term is outR of the arguments' contents, operation for operation (the definitions of meanR,
    preR, leakyR, logitR, gateR and outR list the same operations in the same order). -/
theorem out_eq (V : Valuation τ sig (Elt F)) :
    after ops V (Proc.devRef .tc main_v20)
      = outR (V (Proc.devRef .tc main_arg0)) (V (Proc.devRef .tc main_arg1)) (V (Proc.devRef .tc main_arg2))
          (V (Proc.devRef .tc main_arg3)) (V (Proc.devRef .tc main_arg4)) := by
  after_results_simp
  unfold outR gateR logitR leakyR preR meanR
  rfl

/-- No operation writes an argument's buffer. -/
theorem arg0_eq (V : Valuation τ sig (Elt F)) : after ops V (Proc.devRef .tc main_arg0) = V (Proc.devRef .tc main_arg0) := by
  after_results
theorem arg1_eq (V : Valuation τ sig (Elt F)) : after ops V (Proc.devRef .tc main_arg1) = V (Proc.devRef .tc main_arg1) := by
  after_results
theorem arg2_eq (V : Valuation τ sig (Elt F)) : after ops V (Proc.devRef .tc main_arg2) = V (Proc.devRef .tc main_arg2) := by
  after_results
theorem arg3_eq (V : Valuation τ sig (Elt F)) : after ops V (Proc.devRef .tc main_arg3) = V (Proc.devRef .tc main_arg3) := by
  after_results
theorem arg4_eq (V : Valuation τ sig (Elt F)) : after ops V (Proc.devRef .tc main_arg4) = V (Proc.devRef .tc main_arg4) := by
  after_results

/-- On every device, from any memory with zero counters: the reference terminates with its result at outR of the
    arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v20).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => ops) main_eq (fun _ => ops_sub) m ρ)

end Cert.ReferenceIdeal.RefValue

end
-- ==== Proof.BridgeTerm.lean ====
/-
  The reference's gate as a function of the pooled sums: the same operations as the reference applies after its one
  summation, with the sums as a variable. The reference's gate is this function at the reference's sums.
-/
import proofs.«138880_j44538810859952_1_alg».proof.Proof.RefTerm

noncomputable section

namespace Cert.ReferenceIdeal.RefValue

open Cert.ReferenceIdeal Cert.ReferenceIdeal.Gen Idealize.ShloMosaic

variable {F : FTy → Type} [FloatOps F]

/-- The reference's pooled sums: every plane summed over rows and lanes, from zero. -/
def sumR (x : FVec F S16x256x128x128 .f32) : FVec F S16x256 .f32 :=
  Host.reduceAdd x (constant S_ .f32 0x00000000#32) reducesTo_S16x256x128x128_S16x256_d2_3 h_S_

/-- The reference's gate from given sums s: mean, first layer, leaky rectifier, second layer, logistic. -/
def gateOfSum (s : FVec F S16x256 .f32) (w1 : FVec F S64x256 .f32) (b1 : FVec F S64 .f32) (w2 : FVec F S256x64 .f32) (b2 : FVec F S256 .f32) : FVec F S16x256 .f32 :=
  Host.divf (broadcastInDim S16x256 ![] bcast_S_S16x256 (constant S_ .f32 0x3F800000#32))
    (addf (broadcastInDim S16x256 ![] bcast_S_S16x256 (constant S_ .f32 0x3F800000#32))
      (Host.exp (Host.negf
        (addf (Host.dotGeneral dot_S16x64_S256x64_S16x256_1_1_0_0_n_n none
            (leakyR (addf (Host.dotGeneral dot_S16x256_S64x256_S16x64_1_1_0_0_n_n none
                (Host.divf s (broadcastInDim S16x256 ![] bcast_S_S16x256 (constant S_ .f32 0x46800000#32))) w1)
              (broadcastInDim S16x64 ![0, 1] bcast_S1x64_S16x64_0_1 (broadcastInDim S1x64 ![1] bcast_S64_S1x64_1 b1)))) w2)
          (broadcastInDim S16x256 ![0, 1] bcast_S1x256_S16x256_0_1 (broadcastInDim S1x256 ![1] bcast_S256_S1x256_1 b2))))))

theorem gateR_eq (x : FVec F S16x256x128x128 .f32) (w1 : FVec F S64x256 .f32) (b1 : FVec F S64 .f32) (w2 : FVec F S256x64 .f32) (b2 : FVec F S256 .f32) :
    gateR x w1 b1 w2 b2 = gateOfSum (sumR x) w1 b1 w2 b2 := rfl

end Cert.ReferenceIdeal.RefValue

end
-- ==== Proof.Pooled.lean ====
/-
  The pooled sums agree: adding up a plane band by band (sixteen bands of eight rows, each band's rows summed lane by lane
  and then row by row, the bands added one at a time onto zero) gives the same extended real as summing the plane's
  128 x 128 entries at once from zero, because addition of extended reals is commutative and associative.
-/
import proofs.«138880_j44538810859952_1_alg».proof.Proof.KTerm
import proofs.«138880_j44538810859952_1_alg».proof.Proof.BridgeTerm
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx
open Cert.KernelIdeal.KValue Cert.ReferenceIdeal.RefValue
open Cert.KernelIdeal Cert.KernelIdeal.Gen

/-! ## The start of the running sum -/

/-- The running sum starts from the zero word everywhere, and the zero word is the extended real 0. -/
theorem pay1_eq : (k0_pay1 (F := Ideal)) = fun _ => (0 : EReal) := by
  unfold k0_pay1
  dsimp only
  rw [shapeCast_self]
  funext i
  exact Ideal.ofBits_zero_f32

/-! ## One band's contribution -/

/-- The index of rows-and-lanes over (b, ch, r) with lane l put back is (b, ch, r, l). -/
theorem lift_lane (h : Shape.Reduces S16x256x8x128 [3] S16x256x8) (b : Fin 16) (ch : Fin 256) (r : Fin 8) (l : Fin 128) :
    h.lift (ix3 b ch r) l = ix4 b ch r l := by
  funext a
  apply Fin.ext
  match a with
  | ⟨0, _⟩ => rfl
  | ⟨1, _⟩ => rfl
  | ⟨2, _⟩ => rfl
  | ⟨3, _⟩ => rfl

/-- The index of rows over (b, ch) with row r put back is (b, ch, r). -/
theorem lift_row (h : Shape.Reduces S16x256x8 [2] S16x256) (b : Fin 16) (ch : Fin 256) (r : Fin 8) :
    h.lift (ix2 b ch) r = ix3 b ch r := by
  funext a
  apply Fin.ext
  match a with
  | ⟨0, _⟩ => rfl
  | ⟨1, _⟩ => rfl
  | ⟨2, _⟩ => rfl

/-- One step of the running sum at plane (b, ch): the previous value plus the band's eight rows, each summed over its
    128 lanes. -/
theorem pay2_apply (v3 : FVec Ideal S16x256x8x128 .f32) (v6 : FVec Ideal S16x256 .f32) (b : Fin 16) (ch : Fin 256) :
    k0_pay2 v3 v6 (ix2 b ch) = v6 (ix2 b ch) + ∑ r : Fin 8, ∑ l : Fin 128, v3 (ix4 b ch r l) := by
  unfold k0_pay2
  dsimp only
  rw [shapeCast_self]
  refine congrArg (v6 (ix2 b ch) + ·) ?_
  refine (Ideal.multiReduction_add_single _ _ reduces_S16x256x8_S16x256 _ _ (ix2 b ch)).trans ?_
  refine Finset.sum_congr rfl fun (r : Fin 8) _ => ?_
  refine (congrArg _ (lift_row _ b ch r)).trans ?_
  refine (Ideal.multiReduction_add_single v3 _ reduces_S16x256x8x128_S16x256x8 _ _ (ix3 b ch r)).trans ?_
  exact Finset.sum_congr rfl fun (l : Fin 128) _ => congrArg v3 (lift_lane _ b ch r l)

/-! ## The running sum after band n: the rows below 8 (n + 1) -/

/-- Row r of plane (b, ch) summed over its 128 lanes (zero past the last row, so that rows may be counted by naturals). -/
def rowSum (x : FVec Ideal S16x256x128x128 .f32) (b : Fin 16) (ch : Fin 256) (r : ℕ) : EReal :=
  if h : r < 128 then ∑ l : Fin 128, x (ix4 b ch ⟨r, h⟩ l) else 0

/-- Band n's eight rows, each summed over its lanes, are rows 8n .. 8n + 7 of the plane. -/
theorem band_sum (x : FVec Ideal S16x256x128x128 .f32) (n : ℕ) (hn : n < 16) (b : Fin 16) (ch : Fin 256) :
    ∑ r : Fin 8, ∑ l : Fin 128, band x n hn (ix4 b ch r l) = ∑ r ∈ Finset.range 8, rowSum x b ch (8 * n + r) := by
  rw [← Fin.sum_univ_eq_sum_range (fun r => rowSum x b ch (8 * n + r)) 8]
  refine Finset.sum_congr rfl fun r _ => ?_
  have h : 8 * n + r.val < 128 := by have := r.isLt; omega
  rw [rowSum, dif_pos h]
  rfl

/-- After band n the running sum at plane (b, ch) is the sum of the plane's rows below 8 (n + 1). -/
theorem sumK_apply (x : FVec Ideal S16x256x128x128 .f32) (b : Fin 16) (ch : Fin 256) :
    ∀ (n : ℕ) (hn : n < 16), sumK (F := Ideal) x n hn (ix2 b ch) = ∑ r ∈ Finset.range (8 * (n + 1)), rowSum x b ch r
  | 0, hn => by
    rw [sumK, pay2_apply, pay1_eq, band_sum, zero_add]
    rfl
  | n + 1, hn => by
    rw [sumK, pay2_apply, sumK_apply x b ch n (Nat.lt_of_succ_lt hn), band_sum,
      show 8 * (n + 1 + 1) = 8 * (n + 1) + 8 by ring, Finset.sum_range_add]

/-! ## The reference's sum at a plane -/

/-- The indices of the whole array that lie over plane (b, ch), summed, are the plane's rows and lanes, summed. -/
theorem sum_filter_plane (h : S16x256x128x128.ReducesTo [2, 3] S16x256) (x : S16x256x128x128.Idx → EReal)
    (b : Fin 16) (ch : Fin 256) :
    ∑ i ∈ Finset.univ.filter (fun i => h.drop i = ix2 b ch), x i = ∑ r : Fin 128, ∑ l : Fin 128, x (ix4 b ch r l) := by
  rw [← Fintype.sum_prod_type (fun p : Fin 128 × Fin 128 => x (ix4 b ch p.1 p.2))]
  have hd0 : ∀ i : S16x256x128x128.Idx, (h.drop i 0 : ℕ) = i 0 := fun i => h.drop_apply_val_of_eq i 0 0
  have hd1 : ∀ i : S16x256x128x128.Idx, (h.drop i 1 : ℕ) = i 1 := fun i => h.drop_apply_val_of_eq i 1 1
  refine Finset.sum_nbij' (fun i => ((i 2 : Fin 128), (i 3 : Fin 128))) (fun p => ix4 b ch p.1 p.2) ?_ ?_ ?_ ?_ ?_
  · intro i _; exact Finset.mem_univ _
  · intro p _
    refine Finset.mem_filter.2 ⟨Finset.mem_univ _, ?_⟩
    funext a
    apply Fin.ext
    match a with
    | ⟨0, _⟩ => exact hd0 _
    | ⟨1, _⟩ => exact hd1 _
  · intro i hi
    have hj := (Finset.mem_filter.1 hi).2
    funext a
    apply Fin.ext
    match a with
    | ⟨0, _⟩ => exact ((congrArg (fun j : S16x256.Idx => (j 0 : ℕ)) hj).symm.trans (hd0 i))
    | ⟨1, _⟩ => exact ((congrArg (fun j : S16x256.Idx => (j 1 : ℕ)) hj).symm.trans (hd1 i))
    | ⟨2, _⟩ => rfl
    | ⟨3, _⟩ => rfl
  · intro p _; rfl
  · intro i hi
    have hj := (Finset.mem_filter.1 hi).2
    refine congrArg x ?_
    funext a
    apply Fin.ext
    match a with
    | ⟨0, _⟩ => exact ((congrArg (fun j : S16x256.Idx => (j 0 : ℕ)) hj).symm.trans (hd0 i)).symm
    | ⟨1, _⟩ => exact ((congrArg (fun j : S16x256.Idx => (j 1 : ℕ)) hj).symm.trans (hd1 i)).symm
    | ⟨2, _⟩ => rfl
    | ⟨3, _⟩ => rfl

/-- The reference's sum at plane (b, ch): zero plus the plane's rows and lanes, summed. -/
theorem sumR_apply (x : FVec Ideal S16x256x128x128 .f32) (b : Fin 16) (ch : Fin 256) :
    sumR (F := Ideal) x (ix2 b ch) = ∑ r : Fin 128, ∑ l : Fin 128, x (ix4 b ch r l) := by
  unfold sumR Host.reduceAdd
  rw [Ideal.hostReduceAdd_def]
  unfold Ideal.hostReduceAdd
  rw [sum_filter_plane, constant_apply, Ideal.ofBits_zero_f32, zero_add]

/-- At the exact instance the kernel's running sum after the last band is the reference's sum over rows and lanes. -/
theorem pooled (x : FVec Ideal Cert.KernelIdeal.S16x256x128x128 .f32) :
    sumK (F := Ideal) x 15 (by decide) = sumR (F := Ideal) x := by
  funext j
  obtain ⟨b, ch, rfl⟩ : ∃ (b : Fin 16) (ch : Fin 256), j = ix2 b ch := ⟨j 0, j 1, eq_ix2 j⟩
  rw [sumK_apply, sumR_apply, show 8 * (15 + 1) = 128 from rfl,
    ← Fin.sum_univ_eq_sum_range (fun r => rowSum x b ch r) 128]
  exact Finset.sum_congr rfl fun r _ => by rw [rowSum, dif_pos r.isLt]

end Cert.Bridge

end
-- ==== Proof.GateBridge.lean ====
/-
  The gate agrees. From equal sums s: the kernel multiplies by 2^-14 where the reference divides by
  16384, the same on every extended real; both first layers contract the 256 channels of the mean against the rows of w1;
  the kernel's rectifier keeps a value that is greater than zero and the reference's one that is at least zero, which differ
  only at zero, where a fifth of zero is zero; both second layers contract the 64 hidden units against the rows of w2; and
  the kernel's logistic function is, at the exact instance, one over one plus the exponential of the negated argument,
  which is how the reference spells it.
-/
import proofs.«138880_j44538810859952_1_alg».proof.Proof.KTerm
import proofs.«138880_j44538810859952_1_alg».proof.Proof.BridgeTerm
import Idealize.ShloMosaic.Lib.ValueIdx
import Idealize.ShloMosaic.Lib.ValueLayout
import Idealize.ShloMosaic.Lib.KernelVsHost
import Idealize.ShloMosaic.PureOps.Ideal.Laws

noncomputable section

namespace Cert.Bridge

open Idealize.ShloMosaic Idealize.ShloMosaic.ValueIdx
open Cert.KernelIdeal.KValue Cert.ReferenceIdeal.RefValue
open scoped BigOperators

/-! ## The three words that are evaluated -/

/-- The word 0x3F800000 denotes one. -/
theorem word_one : Ideal.ofBits .f32 0x3F800000#32 = 1 := by
  simp [Ideal.ofBits, Ideal.ieee, -EReal.coe_mul]; norm_num

/-- The word 0x46800000 denotes 16384 = 2^14. -/
theorem word_16384 : Ideal.ofBits .f32 0x46800000#32 = ((16384 : ℝ) : EReal) := by
  simp [Ideal.ofBits, Ideal.ieee, -EReal.coe_mul]; norm_num

/-- The word 0x38800000 denotes 2^-14 = 1/16384 exactly. -/
theorem word_inv16384 : Ideal.ofBits .f32 0x38800000#32 = ((1 / 16384 : ℝ) : EReal) := by
  simp [Ideal.ofBits, Ideal.ieee, -EReal.coe_mul]; norm_num

/-! ## The stages on one extended real -/

/-- The mean: the product with 2^-14 is the quotient by 16384, at the infinities too. -/
theorem mean_eq (x : EReal) :
    x * Ideal.ofBits .f32 0x38800000#32 = Ideal.div x (Ideal.ofBits .f32 0x46800000#32) := by
  rw [word_inv16384, word_16384, Ideal.div_coe (by norm_num : (16384 : ℝ) ≠ 0)]

/-- The rectifier: "greater than zero" and "at least zero" choose differently only at zero, where both branches are zero. -/
theorem leaky_eq (a p : EReal) :
    Scalar.select (Ideal.cmp .ogt p 0) p (a * p) = Scalar.select (Ideal.cmp .oge p 0) p (a * p) := by
  unfold Scalar.select Ideal.cmp
  rcases lt_trichotomy p 0 with h | h | h
  · have h1 : ¬ (0 : EReal) < p := not_lt.mpr h.le
    have h2 : ¬ (0 : EReal) ≤ p := not_le.mpr h
    simp [h1, h2]
  · subst h
    simp
  · have h2 : (0 : EReal) ≤ p := h.le
    simp [h, h2]

/-- The logistic function is one over one plus the exponential of the negated argument, with one spelt by its word. -/
theorem logistic_eq (z : EReal) :
    Ideal.logistic z
      = Ideal.div (Ideal.ofBits .f32 0x3F800000#32) (Ideal.ofBits .f32 0x3F800000#32 + Ideal.exp (-z)) := by
  rw [word_one]; rfl

/-! ## The two matrix products as plain sums

Each layer is a product with a contraction over one axis. The kernel contracts the left operand's axis 1 with axis 0 of a
transposed weight matrix and adds into zero; the reference contracts axis 1 with axis 1 of the weight matrix itself. Both are
the sum over the contracted coordinate of the products of the two rows. -/

/-- The first layer's dimension numbers, the kernel's and the reference's. -/
abbrev DK1 := Cert.KernelIdeal.dot_S16x256_S256x64_S16x64_1_0_0_1_n_n
abbrev DR1 := Cert.ReferenceIdeal.dot_S16x256_S64x256_S16x64_1_1_0_0_n_n
/-- The second layer's. -/
abbrev DK2 := Cert.KernelIdeal.dot_S16x64_S64x256_S16x256_1_0_0_1_n_n
abbrev DR2 := Cert.ReferenceIdeal.dot_S16x64_S256x64_S16x256_1_1_0_0_n_n

/-! ### Operand indices, axis by axis -/

theorem lhsK1_0 (j : Cert.KernelIdeal.S16x64.Idx) (k : DK1.contr.Idx) : (DK1.lhsIdx j k 0 : ℕ) = j 0 := rfl
theorem lhsK1_1 (j : Cert.KernelIdeal.S16x64.Idx) (k : DK1.contr.Idx) : (DK1.lhsIdx j k 1 : ℕ) = k ⟨0, by decide⟩ := rfl
theorem rhsK1_0 (j : Cert.KernelIdeal.S16x64.Idx) (k : DK1.contr.Idx) : (DK1.rhsIdx j k 0 : ℕ) = k ⟨0, by decide⟩ := rfl
theorem rhsK1_1 (j : Cert.KernelIdeal.S16x64.Idx) (k : DK1.contr.Idx) : (DK1.rhsIdx j k 1 : ℕ) = j 1 := rfl

theorem lhsR1_0 (j : Cert.ReferenceIdeal.S16x64.Idx) (k : DR1.contr.Idx) : (DR1.lhsIdx j k 0 : ℕ) = j 0 := rfl
theorem lhsR1_1 (j : Cert.ReferenceIdeal.S16x64.Idx) (k : DR1.contr.Idx) : (DR1.lhsIdx j k 1 : ℕ) = k ⟨0, by decide⟩ := rfl
theorem rhsR1_0 (j : Cert.ReferenceIdeal.S16x64.Idx) (k : DR1.contr.Idx) : (DR1.rhsIdx j k 0 : ℕ) = j 1 := rfl
theorem rhsR1_1 (j : Cert.ReferenceIdeal.S16x64.Idx) (k : DR1.contr.Idx) : (DR1.rhsIdx j k 1 : ℕ) = k ⟨0, by decide⟩ := rfl

theorem lhsK2_0 (j : Cert.KernelIdeal.S16x256.Idx) (k : DK2.contr.Idx) : (DK2.lhsIdx j k 0 : ℕ) = j 0 := rfl
theorem lhsK2_1 (j : Cert.KernelIdeal.S16x256.Idx) (k : DK2.contr.Idx) : (DK2.lhsIdx j k 1 : ℕ) = k ⟨0, by decide⟩ := rfl
theorem rhsK2_0 (j : Cert.KernelIdeal.S16x256.Idx) (k : DK2.contr.Idx) : (DK2.rhsIdx j k 0 : ℕ) = k ⟨0, by decide⟩ := rfl
theorem rhsK2_1 (j : Cert.KernelIdeal.S16x256.Idx) (k : DK2.contr.Idx) : (DK2.rhsIdx j k 1 : ℕ) = j 1 := rfl

theorem lhsR2_0 (j : Cert.ReferenceIdeal.S16x256.Idx) (k : DR2.contr.Idx) : (DR2.lhsIdx j k 0 : ℕ) = j 0 := rfl
theorem lhsR2_1 (j : Cert.ReferenceIdeal.S16x256.Idx) (k : DR2.contr.Idx) : (DR2.lhsIdx j k 1 : ℕ) = k ⟨0, by decide⟩ := rfl
theorem rhsR2_0 (j : Cert.ReferenceIdeal.S16x256.Idx) (k : DR2.contr.Idx) : (DR2.rhsIdx j k 0 : ℕ) = j 1 := rfl
theorem rhsR2_1 (j : Cert.ReferenceIdeal.S16x256.Idx) (k : DR2.contr.Idx) : (DR2.rhsIdx j k 1 : ℕ) = k ⟨0, by decide⟩ := rfl

/-! ### Operand indices at coordinates, the contracted coordinate named -/

theorem lhsK1_ix (b : Fin 16) (r : Fin 64) (c : Fin 256) :
    DK1.lhsIdx (ix2 b r) ((contrEquiv1 DK1 256 rfl rfl).symm c) = ix2 b c := by
  funext a; apply Fin.ext
  match a with
  | ⟨0, _⟩ => exact lhsK1_0 _ _
  | ⟨1, _⟩ => exact (lhsK1_1 _ _).trans (contrEquiv1_symm_val DK1 256 rfl rfl c)
theorem rhsK1_ix (b : Fin 16) (r : Fin 64) (c : Fin 256) :
    DK1.rhsIdx (ix2 b r) ((contrEquiv1 DK1 256 rfl rfl).symm c) = ix2 c r := by
  funext a; apply Fin.ext
  match a with
  | ⟨0, _⟩ => exact (rhsK1_0 _ _).trans (contrEquiv1_symm_val DK1 256 rfl rfl c)
  | ⟨1, _⟩ => exact rhsK1_1 _ _
theorem lhsR1_ix (b : Fin 16) (r : Fin 64) (c : Fin 256) :
    DR1.lhsIdx (ix2 b r) ((contrEquiv1 DR1 256 rfl rfl).symm c) = ix2 b c := by
  funext a; apply Fin.ext
  match a with
  | ⟨0, _⟩ => exact lhsR1_0 _ _
  | ⟨1, _⟩ => exact (lhsR1_1 _ _).trans (contrEquiv1_symm_val DR1 256 rfl rfl c)
theorem rhsR1_ix (b : Fin 16) (r : Fin 64) (c : Fin 256) :
    DR1.rhsIdx (ix2 b r) ((contrEquiv1 DR1 256 rfl rfl).symm c) = ix2 r c := by
  funext a; apply Fin.ext
  match a with
  | ⟨0, _⟩ => exact rhsR1_0 _ _
  | ⟨1, _⟩ => exact (rhsR1_1 _ _).trans (contrEquiv1_symm_val DR1 256 rfl rfl c)

theorem lhsK2_ix (b : Fin 16) (ch : Fin 256) (r : Fin 64) :
    DK2.lhsIdx (ix2 b ch) ((contrEquiv1 DK2 64 rfl rfl).symm r) = ix2 b r := by
  funext a; apply Fin.ext
  match a with
  | ⟨0, _⟩ => exact lhsK2_0 _ _
  | ⟨1, _⟩ => exact (lhsK2_1 _ _).trans (contrEquiv1_symm_val DK2 64 rfl rfl r)
theorem rhsK2_ix (b : Fin 16) (ch : Fin 256) (r : Fin 64) :
    DK2.rhsIdx (ix2 b ch) ((contrEquiv1 DK2 64 rfl rfl).symm r) = ix2 r ch := by
  funext a; apply Fin.ext
  match a with
  | ⟨0, _⟩ => exact (rhsK2_0 _ _).trans (contrEquiv1_symm_val DK2 64 rfl rfl r)
  | ⟨1, _⟩ => exact rhsK2_1 _ _
theorem lhsR2_ix (b : Fin 16) (ch : Fin 256) (r : Fin 64) :
    DR2.lhsIdx (ix2 b ch) ((contrEquiv1 DR2 64 rfl rfl).symm r) = ix2 b r := by
  funext a; apply Fin.ext
  match a with
  | ⟨0, _⟩ => exact lhsR2_0 _ _
  | ⟨1, _⟩ => exact (lhsR2_1 _ _).trans (contrEquiv1_symm_val DR2 64 rfl rfl r)
theorem rhsR2_ix (b : Fin 16) (ch : Fin 256) (r : Fin 64) :
    DR2.rhsIdx (ix2 b ch) ((contrEquiv1 DR2 64 rfl rfl).symm r) = ix2 ch r := by
  funext a; apply Fin.ext
  match a with
  | ⟨0, _⟩ => exact rhsR2_0 _ _
  | ⟨1, _⟩ => exact (rhsR2_1 _ _).trans (contrEquiv1_symm_val DR2 64 rfl rfl r)

/-! ### The products at an entry -/

/-- The kernel's first product at (b, r): the sum over the 256 channels c of m(b, c) times w1(r, c); the transposed matrix
    at (c, r) is w1 at (r, c). -/
theorem dense1_kernel (m : FVec Ideal Cert.KernelIdeal.S16x256 .f32) (w1 : FVec Ideal Cert.KernelIdeal.S64x256 .f32)
    (h : Cert.KernelIdeal.S64x256.Transposes [1, 0] Cert.KernelIdeal.S256x64) (b : Fin 16) (r : Fin 64) :
    matmul (F := Ideal) DK1 none m (transpose Cert.KernelIdeal.S256x64 [1, 0] w1 h)
        (constant (F := Ideal) Cert.KernelIdeal.S16x64 .f32 0x00000000#32) (ix2 b r)
      = ∑ c : Fin 256, m (ix2 b c) * w1 (ix2 r c) := by
  refine (Ideal.matmul_constant_zero_apply DK1 none m _ (ix2 b r)).trans ?_
  refine (Equiv.sum_comp (contrEquiv1 DK1 256 rfl rfl).symm _).symm.trans ?_
  refine Finset.sum_congr rfl fun c _ => ?_
  rw [lhsK1_ix, rhsK1_ix, transpose_ix2_apply]

/-- The reference's first product at (b, r): the same sum. -/
theorem dense1_ref (m : FVec Ideal Cert.ReferenceIdeal.S16x256 .f32) (w1 : FVec Ideal Cert.ReferenceIdeal.S64x256 .f32)
    (b : Fin 16) (r : Fin 64) :
    Host.dotGeneral (F := Ideal) DR1 none m w1 (ix2 b r) = ∑ c : Fin 256, m (ix2 b c) * w1 (ix2 r c) := by
  refine (Ideal.dotGeneral_apply DR1 none .single m w1 (ix2 b r)).trans ?_
  refine (Equiv.sum_comp (contrEquiv1 DR1 256 rfl rfl).symm _).symm.trans ?_
  refine Finset.sum_congr rfl fun c _ => ?_
  rw [lhsR1_ix, rhsR1_ix]

/-- So the two first products are one array. -/
theorem dense1_eq (m : FVec Ideal Cert.KernelIdeal.S16x256 .f32) (w1 : FVec Ideal Cert.KernelIdeal.S64x256 .f32)
    (h : Cert.KernelIdeal.S64x256.Transposes [1, 0] Cert.KernelIdeal.S256x64) :
    matmul (F := Ideal) DK1 none m (transpose Cert.KernelIdeal.S256x64 [1, 0] w1 h)
        (constant (F := Ideal) Cert.KernelIdeal.S16x64 .f32 0x00000000#32)
      = Host.dotGeneral (F := Ideal) DR1 none m w1 := by
  funext j
  obtain ⟨b, r, rfl⟩ : ∃ (b : Fin 16) (r : Fin 64), j = ix2 b r := ⟨j 0, j 1, eq_ix2 j⟩
  exact (dense1_kernel m w1 h b r).trans (dense1_ref m w1 b r).symm

/-- The kernel's second product at (b, ch): the sum over the 64 hidden units r of a(b, r) times w2(ch, r). -/
theorem dense2_kernel (a : FVec Ideal Cert.KernelIdeal.S16x64 .f32) (w2 : FVec Ideal Cert.KernelIdeal.S256x64 .f32)
    (h : Cert.KernelIdeal.S256x64.Transposes [1, 0] Cert.KernelIdeal.S64x256) (b : Fin 16) (ch : Fin 256) :
    matmul (F := Ideal) DK2 none a (transpose Cert.KernelIdeal.S64x256 [1, 0] w2 h)
        (constant (F := Ideal) Cert.KernelIdeal.S16x256 .f32 0x00000000#32) (ix2 b ch)
      = ∑ r : Fin 64, a (ix2 b r) * w2 (ix2 ch r) := by
  refine (Ideal.matmul_constant_zero_apply DK2 none a _ (ix2 b ch)).trans ?_
  refine (Equiv.sum_comp (contrEquiv1 DK2 64 rfl rfl).symm _).symm.trans ?_
  refine Finset.sum_congr rfl fun r _ => ?_
  rw [lhsK2_ix, rhsK2_ix, transpose_ix2_apply]

/-- The reference's second product at (b, ch): the same sum. -/
theorem dense2_ref (a : FVec Ideal Cert.ReferenceIdeal.S16x64 .f32) (w2 : FVec Ideal Cert.ReferenceIdeal.S256x64 .f32)
    (b : Fin 16) (ch : Fin 256) :
    Host.dotGeneral (F := Ideal) DR2 none a w2 (ix2 b ch) = ∑ r : Fin 64, a (ix2 b r) * w2 (ix2 ch r) := by
  refine (Ideal.dotGeneral_apply DR2 none .single a w2 (ix2 b ch)).trans ?_
  refine (Equiv.sum_comp (contrEquiv1 DR2 64 rfl rfl).symm _).symm.trans ?_
  refine Finset.sum_congr rfl fun r _ => ?_
  rw [lhsR2_ix, rhsR2_ix]

/-- So the two second products are one array. -/
theorem dense2_eq (a : FVec Ideal Cert.KernelIdeal.S16x64 .f32) (w2 : FVec Ideal Cert.KernelIdeal.S256x64 .f32)
    (h : Cert.KernelIdeal.S256x64.Transposes [1, 0] Cert.KernelIdeal.S64x256) :
    matmul (F := Ideal) DK2 none a (transpose Cert.KernelIdeal.S64x256 [1, 0] w2 h)
        (constant (F := Ideal) Cert.KernelIdeal.S16x256 .f32 0x00000000#32)
      = Host.dotGeneral (F := Ideal) DR2 none a w2 := by
  funext j
  obtain ⟨b, ch, rfl⟩ : ∃ (b : Fin 16) (ch : Fin 256), j = ix2 b ch := ⟨j 0, j 1, eq_ix2 j⟩
  exact (dense2_kernel a w2 h b ch).trans (dense2_ref a w2 b ch).symm

/-! ## A bias laid along every row

The kernel casts the bias vector to one row and broadcasts the row down the rows; the reference broadcasts the vector to one
row along axis 1 and that row down the rows. Both read, at (p, c), the vector at c. -/

theorem bias_eq {m n : ℕ} (x : (⟨1, ![n]⟩ : Shape).Idx → EReal)
    (h1 : (⟨1, ![n]⟩ : Shape).ShapeCasts ⟨2, ![1, n]⟩) (h2 : (⟨2, ![1, n]⟩ : Shape).Broadcasts ⟨2, ![m, n]⟩)
    (hc : (⟨1, ![n]⟩ : Shape).BroadcastsInDim ⟨2, ![1, n]⟩ ![1])
    (hb : (⟨2, ![1, n]⟩ : Shape).BroadcastsInDim ⟨2, ![m, n]⟩ ![0, 1]) :
    broadcastTo ⟨2, ![m, n]⟩ (shapeCast ⟨2, ![1, n]⟩ x h1) h2
      = broadcastInDim ⟨2, ![m, n]⟩ ![0, 1] hb (broadcastInDim ⟨2, ![1, n]⟩ ![1] hc x) := by
  funext j
  obtain ⟨p, c, rfl⟩ : ∃ (p : Fin m) (c : Fin n), j = ix2 p c := ⟨j 0, j 1, eq_ix2 j⟩
  rw [broadcastTo_1b_ab_apply, shapeCast_a_1a_apply, broadcastInDim_oneRow_apply]
  refine (broadcastInDim_apply ![1] hc x (ix2 (0 : Fin 1) c) (ix1 c) fun a => ?_).symm
  match a with
  | ⟨0, _⟩ =>
    show c.val = if n = 1 then 0 else c.val
    split
    · have := c.isLt; omega
    · rfl

/-! ## The pointwise stages as arrays -/

/-- The mean: the kernel's product with the splat of 2^-14 is the reference's quotient by the broadcast 16384. -/
theorem mean_vec (s : FVec Ideal Cert.KernelIdeal.S16x256 .f32)
    (h : Cert.ReferenceIdeal.S_.BroadcastsInDim Cert.ReferenceIdeal.S16x256 (![] : Fin 0 → Fin Cert.ReferenceIdeal.S16x256.rank)) :
    mulf s (broadcast Cert.KernelIdeal.S16x256 (Scalar.ofBits (F := Ideal) .f32 0x38800000#32))
      = Host.divf (F := Ideal) s (broadcastInDim Cert.ReferenceIdeal.S16x256 ![] h (constant (F := Ideal) Cert.ReferenceIdeal.S_ .f32 0x46800000#32)) := by
  funext i
  exact mean_eq (s i)

/-- The rectifier: the kernel's select on "greater than zero" is the reference's leaky rectifier. -/
theorem leaky_vec (p : FVec Ideal Cert.KernelIdeal.S16x64 .f32) :
    select (cmpf .ogt p (broadcast Cert.KernelIdeal.S16x64 (Scalar.ofBits (F := Ideal) .f32 0x00000000#32))) p
        (mulf (broadcast Cert.KernelIdeal.S16x64 (Scalar.ofBits (F := Ideal) .f32 0x3E4CCCCD#32)) p)
      = leakyR (F := Ideal) p := by
  funext i
  unfold leakyR
  show Scalar.select (Ideal.cmp .ogt (p i) (Ideal.ofBits .f32 0x00000000#32)) (p i) (Ideal.ofBits .f32 0x3E4CCCCD#32 * p i)
    = Scalar.select (Ideal.cmp .oge (p i) (Ideal.ofBits .f32 0x00000000#32)) (p i) (Ideal.ofBits .f32 0x3E4CCCCD#32 * p i)
  rw [Ideal.ofBits_zero_f32]
  exact leaky_eq _ _

/-- The logistic function: the kernel's operation is the reference's one over one plus the exponential of the negation. -/
theorem logistic_vec (z : FVec Ideal Cert.KernelIdeal.S16x256 .f32)
    (h : Cert.ReferenceIdeal.S_.BroadcastsInDim Cert.ReferenceIdeal.S16x256 (![] : Fin 0 → Fin Cert.ReferenceIdeal.S16x256.rank)) :
    logistic z
      = Host.divf (F := Ideal) (broadcastInDim Cert.ReferenceIdeal.S16x256 ![] h (constant (F := Ideal) Cert.ReferenceIdeal.S_ .f32 0x3F800000#32))
          (addf (broadcastInDim Cert.ReferenceIdeal.S16x256 ![] h (constant (F := Ideal) Cert.ReferenceIdeal.S_ .f32 0x3F800000#32))
            (Host.exp (Host.negf z))) := by
  funext i
  exact logistic_eq (z i)

/-! ## The gate -/

/-- At the exact instance the kernel's gate arithmetic on sums s is the reference's gate of the same sums. -/
theorem gate_of_sum (s : FVec Ideal Cert.KernelIdeal.S16x256 .f32) (w1 : FVec Ideal Cert.KernelIdeal.S64x256 .f32) (b1 : FVec Ideal Cert.KernelIdeal.S64 .f32)
    (w2 : FVec Ideal Cert.KernelIdeal.S256x64 .f32) (b2 : FVec Ideal Cert.KernelIdeal.S256 .f32) :
    Cert.KernelIdeal.Gen.k0_pay3 (F := Ideal) s w1 b1 w2 b2 = gateOfSum (F := Ideal) s w1 b1 w2 b2 := by
  unfold Cert.KernelIdeal.Gen.k0_pay3 gateOfSum
  dsimp only
  rw [mean_vec, dense1_eq, bias_eq, leaky_vec, dense2_eq, bias_eq, logistic_vec]

end Cert.Bridge

end
-- ==== Proof.ScaleBridge.lean ====
/-
  Scaling agrees: the kernel multiplies every plane entry x[b, c, h, l] by the gate's entry g[b, c]; the reference first
  spreads the gate to shape [16, 256, 1, 1] and then over the 128 rows and 128 lanes and multiplies entry by entry. A spread
  array read at (b, c, h, l) is the gate at (b, c), so the two products are the same.
-/
import proofs.«138880_j44538810859952_1_alg».proof.Proof.KTerm
import proofs.«138880_j44538810859952_1_alg».proof.Proof.BridgeTerm
import Idealize.ShloMosaic.Lib.ValueIdx
import Idealize.ShloMosaic.Lib.Pipeline.Value

noncomputable section

namespace Cert.Bridge

open Idealize.ShloMosaic Idealize.ShloMosaic.ValueIdx
open Cert.KernelIdeal.KValue Cert.ReferenceIdeal.RefValue
open Cert.ReferenceIdeal Cert.ReferenceIdeal.Gen

/-- The gate spread over unit axes and then over rows and lanes, read at (b, c, h, l), is the gate at (b, c). -/
theorem spread_apply (g : FVec Ideal S16x256 .f32) (i : S16x256x128x128.Idx) :
    broadcastInDim S16x256x128x128 ![0, 1, 2, 3] bcast_S16x256x1x1_S16x256x128x128_0_1_2_3
      (broadcastInDim S16x256x1x1 ![0, 1] bcast_S16x256_S16x256x1x1_0_1 g) i
      = g (ix2 (n0 := 16) (n1 := 256) (i 0) (i 1)) := by
  rw [broadcastInDim_apply _ _ _ i (ix4 (n0 := 16) (n1 := 256) (n2 := 1) (n3 := 1) (i 0) (i 1) ⟨0, Nat.one_pos⟩ ⟨0, Nat.one_pos⟩)
    (fun a => by match a with | ⟨0, _⟩ => rfl | ⟨1, _⟩ => rfl | ⟨2, _⟩ => rfl | ⟨3, _⟩ => rfl)]
  rw [broadcastInDim_apply _ _ _ _ (ix2 (n0 := 16) (n1 := 256) (i 0) (i 1))
    (fun a => by match a with | ⟨0, _⟩ => rfl | ⟨1, _⟩ => rfl)]

/-- Scaling every plane by its channel's gate is the reference's product with the gate spread over rows and lanes. -/
theorem scale_out (x : FVec Ideal S16x256x128x128 .f32) (g : FVec Ideal S16x256 .f32) :
    outK (F := Ideal) x g = mulf x (broadcastInDim S16x256x128x128 ![0, 1, 2, 3] bcast_S16x256x1x1_S16x256x128x128_0_1_2_3
      (broadcastInDim S16x256x1x1 ![0, 1] bcast_S16x256_S16x256x1x1_0_1 g)) := by
  funext i
  rw [mulf_apply, spread_apply]
  rfl

end Cert.Bridge

end
-- ==== Proof.Bridge.lean ====
/-
  The two results are one function of the five arguments at the exact instance: the pooled sums agree, the gate of equal
  sums agrees, and scaling the planes by the gate is the same product on both sides.
-/
import proofs.«138880_j44538810859952_1_alg».proof.Proof.Pooled
import proofs.«138880_j44538810859952_1_alg».proof.Proof.GateBridge
import proofs.«138880_j44538810859952_1_alg».proof.Proof.ScaleBridge

noncomputable section

namespace Cert.Bridge

open Idealize.ShloMosaic
open Cert.KernelIdeal.KValue Cert.ReferenceIdeal.RefValue

/-- The kernel's result function is the reference's. -/
theorem bridge (x : FVec Ideal Cert.KernelIdeal.S16x256x128x128 .f32) (w1 : FVec Ideal Cert.KernelIdeal.S64x256 .f32) (b1 : FVec Ideal Cert.KernelIdeal.S64 .f32)
    (w2 : FVec Ideal Cert.KernelIdeal.S256x64 .f32) (b2 : FVec Ideal Cert.KernelIdeal.S256 .f32) :
    outK (F := Ideal) x (gateK x w1 b1 w2 b2) = outR (F := Ideal) x w1 b1 w2 b2 := by
  have hg : gateK (F := Ideal) x w1 b1 w2 b2 = gateR (F := Ideal) x w1 b1 w2 b2 := by
    unfold gateK
    rw [pooled x, gate_of_sum]
    exact (gateR_eq x w1 b1 w2 b2).symm
  rw [hg, scale_out]
  rfl

end Cert.Bridge

end
-- ==== Proof.lean ====
/-
  Squeeze-and-excite: a Pallas kernel in two pipelined regions against its jnp reference, over f32[16, 256, 128, 128].
  Both compute  out[b, c, h, l] = x[b, c, h, l] * g[b, c]  with
      g   = logistic( leaky(mean · w1ᵀ + b1) · w2ᵀ + b2 ),     mean[b, c] = (sum of the plane x[b, c, ·, ·]) / 16384.
  The kernel sums every plane band by band into a scratch buffer (sixteen bands of eight rows), multiplies by 2^-14,
  keeps a pre-activation that is greater than zero (the reference: at least zero; they differ only at zero, where a fifth
  of zero is zero) and uses the one-operation logistic function (the reference: one over one plus the exponential of the
  negated argument; at the exact instance that is the logistic function's definition). Sums of extended reals may be
  regrouped freely, so the two results are one function of the arguments and no finiteness of the inputs is used.
  The three frames: each region's body is run once per control case, the first region's invariant carries the running
  sum from band to band, and the two regions are chained through the valuations of the buffers between them; the
  reference is a straight line of host operations. The ideal pass rewrote nothing, so preserves is trivial.
-/
import proofs.«138880_j44538810859952_1_alg».proof.Defs
import proofs.«138880_j44538810859952_1_alg».proof.Proof.Gen.Kernel
import proofs.«138880_j44538810859952_1_alg».proof.Proof.Gen.KernelIdeal
import proofs.«138880_j44538810859952_1_alg».proof.Proof.Gen.ReferenceIdeal
import proofs.«138880_j44538810859952_1_alg».proof.Proof.Gen.Pre_finite_inputs
import proofs.«138880_j44538810859952_1_alg».proof.Proof.Kernel.Run
import proofs.«138880_j44538810859952_1_alg».proof.Proof.KernelIdeal.KernelValue
import proofs.«138880_j44538810859952_1_alg».proof.Proof.RefRun
import proofs.«138880_j44538810859952_1_alg».proof.Proof.Bridge
import Idealize.ShloMosaic.Adequacy
import Idealize.ShloMosaic.Init

noncomputable section

namespace Cert.Proof

open Idealize.ShloMosaic Idealize.SL.Sem

theorem frame_p : Cert.frame_Kernel := fun m ρ _ => Cert.Kernel.Fr.frame (F := Bits) m ρ
theorem frame_pi : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2) (Cert.ReferenceIdeal.RefValue.run (F := Ideal) m ρ)

/-- At the exact instance the kernel's result array ends at its result function of the arguments (the value run) and the
    reference's at its own (the reference's run), of arguments that agree: one function (the bridge). -/
theorem algebraic : Cert.algebraic_KernelIdeal_ReferenceIdeal := by
  intro m ρ m' ρ' _ hagree
  refine ⟨_, Cert.KernelIdeal.Fr.value_run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2]
  exact (Cert.Bridge.bridge _ _ _ _ _).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
